-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x256x256 : Shape := ⟨4, ![16, 16, 256, 256]⟩
abbrev S1 : Shape := ⟨1, ![1]⟩
abbrev S_ : Shape := ⟨0, ![]⟩

class Facts : Prop where
  bcast_S_S16x16x256x256 : S_.BroadcastsInDim S16x16x256x256 (![] : Fin 0 → Fin S16x16x256x256.rank)
  reducesTo_S16x16x256x256_S_d0_1_2_3 : S16x16x256x256.ReducesTo [0, 1, 2, 3] S_
  h_S_ : 0 < S_.numel

variable [Facts]

def fn {F : FTy → Type} [FloatOps F] (main_arg0 : FVec F S16x16x256x256 .f32) (main_arg1 : FVec F S16x16x256x256 .f32) (main_arg2 : IVec S16x16x256x256 1) (main_arg3 : IVec S1 32) : IVec S_ 1 :=
  let main_v0 : FVec F S16x16x256x256 .f32 := Host.absf main_arg0
  let main_cst : FVec F S_ .f32 := constant S_ .f32 0x7F800000#32
  let main_v1 : FVec F S16x16x256x256 .f32 := broadcastInDim S16x16x256x256 ![] bcast_S_S16x16x256x256 main_cst
  let main_v2 : IVec S16x16x256x256 1 := cmpf .olt main_v0 main_v1
  let main_c : IVec S_ 1 := constantI S_ 1 1#1
  let main_v3 : IVec S_ 1 := (fun x v => Host.reduce IntOp.andi x v reducesTo_S16x16x256x256_S_d0_1_2_3 h_S_) main_v2 main_c
  let main_v4 : FVec F S16x16x256x256 .f32 := Host.absf main_arg1
  let main_cst_0 : FVec F S_ .f32 := constant S_ .f32 0x7F800000#32
  let main_v5 : FVec F S16x16x256x256 .f32 := broadcastInDim S16x16x256x256 ![] bcast_S_S16x16x256x256 main_cst_0
  let main_v6 : IVec S16x16x256x256 1 := cmpf .olt main_v4 main_v5
  let main_c_1 : IVec S_ 1 := constantI S_ 1 1#1
  let main_v7 : IVec S_ 1 := (fun x v => Host.reduce IntOp.andi x v reducesTo_S16x16x256x256_S_d0_1_2_3 h_S_) main_v6 main_c_1
  let main_v8 : IVec S_ 1 := andi main_v3 main_v7
  main_v8
-- ==== Kernel.lean ====
abbrev S16x16x256x256 : Shape := ⟨4, ![16, 16, 256, 256]⟩
abbrev S1 : Shape := ⟨1, ![1]⟩
abbrev S1x1 : Shape := ⟨2, ![1, 1]⟩
abbrev S1x16x128x256 : Shape := ⟨4, ![1, 16, 128, 256]⟩
abbrev S1x16x1x1 : Shape := ⟨4, ![1, 16, 1, 1]⟩
abbrev S1x128x256 : Shape := ⟨3, ![1, 128, 256]⟩
abbrev S1x1x128x256 : Shape := ⟨4, ![1, 1, 128, 256]⟩
abbrev S1x16x128 : Shape := ⟨3, ![1, 16, 128]⟩
abbrev S1x16x128x1 : Shape := ⟨4, ![1, 16, 128, 1]⟩
abbrev S1x16x1 : Shape := ⟨3, ![1, 16, 1]⟩
abbrev S1x1x1 : Shape := ⟨3, ![1, 1, 1]⟩
abbrev S1x1x1x1 : Shape := ⟨4, ![1, 1, 1, 1]⟩
abbrev S_ : Shape := ⟨0, ![]⟩

abbrev nBuf : Space → Nat
  | .hbm => 7
  | .vmem => 13
  | .smem => 0
  | _ => 0

abbrev bufTy : (tb : Table) → Fin (tcTables nBuf tb) → BufTy
  | .hbm, ⟨0, _⟩ => ⟨S16x16x256x256, .f32⟩
  | .hbm, ⟨1, _⟩ => ⟨S16x16x256x256, .f32⟩
  | .hbm, ⟨2, _⟩ => ⟨S16x16x256x256, .i1⟩
  | .hbm, ⟨3, _⟩ => ⟨S1, .i32⟩
  | .hbm, ⟨4, _⟩ => ⟨S16x16x256x256, .i32⟩
  | .hbm, ⟨5, _⟩ => ⟨S1x1, .f32⟩
  | .hbm, ⟨6, _⟩ => ⟨S_, .f32⟩
  | .local _ .vmem, ⟨0, _⟩ => ⟨S1x16x128x256, .f32⟩
  | .local _ .vmem, ⟨1, _⟩ => ⟨S1x16x128x256, .f32⟩
  | .local _ .vmem, ⟨2, _⟩ => ⟨S1x16x128x256, .f32⟩
  | .local _ .vmem, ⟨3, _⟩ => ⟨S1x16x128x256, .f32⟩
  | .local _ .vmem, ⟨4, _⟩ => ⟨S1x16x128x256, .i32⟩
  | .local _ .vmem, ⟨5, _⟩ => ⟨S1x16x128x256, .i32⟩
  | .local _ .vmem, ⟨6, _⟩ => ⟨S1x1, .f32⟩
  | .local _ .vmem, ⟨7, _⟩ => ⟨S1x16x1x1, .f32⟩
  | .local _ .vmem, ⟨8, _⟩ => ⟨S1x16x1x1, .f32⟩
  | .local _ .vmem, ⟨9, _⟩ => ⟨S1x16x1x1, .f32⟩
  | .local _ .vmem, ⟨10, _⟩ => ⟨S1x16x1x1, .f32⟩
  | .local _ .vmem, ⟨11, _⟩ => ⟨S1x16x1x1, .f32⟩
  | .local _ .vmem, ⟨12, _⟩ => ⟨S1x16x1x1, .f32⟩
  | _, _ => ⟨S16x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg0 : BitVec 32 := BitVec.ofNat 32 (i 0).val
  let c15_i32 : BitVec 32 := 15#32
  let v3 : BitVec 1 := Scalar.cmpi .eq arg0 c15_i32
  let arg1 : BitVec 32 := BitVec.ofNat 32 (i 1).val
  let c1_i32 : BitVec 32 := 1#32
  let v4 : BitVec 1 := Scalar.cmpi .eq arg1 c1_i32
  let v5 : BitVec 1 := Scalar.andi v3 v4
  let v79 : BitVec 32 := Scalar.extui v5
  let c0_i32_75 : BitVec 32 := 0#32
  let v80 : BitVec 1 := Scalar.cmpi .ne v79 c0_i32_75
  v80

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  natLt_1_32 : 1 < 32
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S1x16x1x1_S1x16x1x1 : S1x16x1x1.ShapeCasts S1x16x1x1
  inb_S1x16x128x256_S1x16x128x256_0_0_0_0 : ∀ a, (![0, 0, 0, 0] : Fin 4 → Nat) a + S1x16x128x256.size a ≤ S1x16x128x256.size a
  h_S1x16x128x256 : 0 < S1x16x128x256.numel
  reduces_S1x16x128x256_S1x128x256 : S1x16x128x256.Reduces [1] S1x128x256
  shapeCasts_S1x128x256_S1x1x128x256 : S1x128x256.ShapeCasts S1x1x128x256
  shapeCasts_S1x1x128x256_S1x1x128x256 : S1x1x128x256.ShapeCasts S1x1x128x256
  broadcasts_S1x1x128x256_S1x16x128x256 : S1x1x128x256.Broadcasts S1x16x128x256
  reduces_S1x16x128x256_S1x16x128 : S1x16x128x256.Reduces [3] S1x16x128
  shapeCasts_S1x16x128_S1x16x128x1 : S1x16x128.ShapeCasts S1x16x128x1
  reduces_S1x16x128x1_S1x16x1 : S1x16x128x1.Reduces [2] S1x16x1
  shapeCasts_S1x16x1_S1x16x1x1 : S1x16x1.ShapeCasts S1x16x1x1
  reduces_S1x16x1x1_S1x1x1 : S1x16x1x1.Reduces [1] S1x1x1
  shapeCasts_S1x1x1_S1x1x1x1 : S1x1x1.ShapeCasts S1x1x1x1
  shapeCasts_S1x1x1x1_S1x1 : S1x1x1x1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x256.size a ≤ S16x16x256x256.size a
  hwx0_0 : ∀ i : grid0.Coords, EltTy.bits .f32 = 32 ∨ (Rect.block (s := S16x16x256x256) S1x16x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x256.size a ≤ S16x16x256x256.size a
  hwx0_1 : ∀ i : grid0.Coords, EltTy.bits .f32 = 32 ∨ (Rect.block (s := S16x16x256x256) S1x16x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128x256.size a ≤ S16x16x256x256.size a
  hwx0_2 : ∀ i : grid0.Coords, EltTy.bits .i32 = 32 ∨ (Rect.block (s := S16x16x256x256) S1x16x128x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x16x256x256 : Shape := ⟨4, ![16, 16, 256, 256]⟩
abbrev S1 : Shape := ⟨1, ![1]⟩
abbrev S_ : Shape := ⟨0, ![]⟩
abbrev S16x256x256 : Shape := ⟨3, ![16, 256, 256]⟩
abbrev S16x1x256x256 : Shape := ⟨4, ![16, 1, 256, 256]⟩
abbrev S16 : Shape := ⟨1, ![16]⟩

abbrev nBuf : Space → Nat
  | .hbm => 80
  | .vmem => 0
  | .smem => 0
  | _ => 0

abbrev bufTy : (tb : Table) → Fin (tcTables nBuf tb) → BufTy
  | .hbm, ⟨0, _⟩ => ⟨S16x16x256x256, .f32⟩
  | .hbm, ⟨1, _⟩ => ⟨S16x16x256x256, .f32⟩
  | .hbm, ⟨2, _⟩ => ⟨S16x16x256x256, .i1⟩
  | .hbm, ⟨3, _⟩ => ⟨S1, .i32⟩
  | .hbm, ⟨4, _⟩ => ⟨S16x16x256x256, .f32⟩
  | .hbm, ⟨5, _⟩ => ⟨S16x16x256x256, .f32⟩
  | .hbm, ⟨6, _⟩ => ⟨S16x16x256x256, .f32⟩
  | .hbm, ⟨7, _⟩ => ⟨S_, .f32⟩
  | .hbm, ⟨8, _⟩ => ⟨S16x16x256x256, .f32⟩
  | .hbm, ⟨9, _⟩ => ⟨S16x16x256x256, .f32⟩
  | .hbm, ⟨10, _⟩ => ⟨S_, .i1⟩
  | .hbm, ⟨11, _⟩ => ⟨S16x256x256, .i1⟩
  | .hbm, ⟨12, _⟩ => ⟨S16x1x256x256, .i1⟩
  | .hbm, ⟨13, _⟩ => ⟨S16x1x256x256, .f32⟩
  | .hbm, ⟨14, _⟩ => ⟨S16x16x256x256, .f32⟩
  | .hbm, ⟨15, _⟩ => ⟨S_, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .i1⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S16x16x256x256, .f32⟩
  | .hbm, ⟨35, _⟩ => ⟨S_, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .i1⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x16x256x256, .f32⟩
  | .hbm, ⟨55, _⟩ => ⟨S16x16x256x256, .f32⟩
  | .hbm, ⟨56, _⟩ => ⟨S_, .f32⟩
  | .hbm, ⟨57, _⟩ => ⟨S16, .f32⟩
  | .hbm, ⟨58, _⟩ => ⟨S16x16x256x256, .f32⟩
  | .hbm, ⟨59, _⟩ => ⟨S_, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .i1⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S16x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_11 : Ref sig .tc := ⟨.hbm, 46, rfl⟩
abbrev main_call1_v0 : Ref sig .tc := ⟨.hbm, 47, rfl⟩
abbrev main_call1_v1 : Ref sig .tc := ⟨.hbm, 48, rfl⟩
abbrev main_v27 : Ref sig .tc := ⟨.hbm, 49, rfl⟩
abbrev main_cst_12 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_14 : Ref sig .tc := ⟨.hbm, 56, rfl⟩
abbrev main_v32 : Ref sig .tc := ⟨.hbm, 57, rfl⟩
abbrev main_v33 : Ref sig .tc := ⟨.hbm, 58, rfl⟩
abbrev main_cst_15 : Ref sig .tc := ⟨.hbm, 59, rfl⟩
abbrev main_v34 : Ref sig .tc := ⟨.hbm, 60, rfl⟩
abbrev main_cst_16 : Ref sig .tc := ⟨.hbm, 61, rfl⟩
abbrev main_v35 : Ref sig .tc := ⟨.hbm, 62, rfl⟩
abbrev main_v36 : Ref sig .tc := ⟨.hbm, 63, rfl⟩
abbrev main_cst_17 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_18 : Ref sig .tc := ⟨.hbm, 68, rfl⟩
abbrev main_call2_v0 : Ref sig .tc := ⟨.hbm, 69, rfl⟩
abbrev main_call2_v1 : Ref sig .tc := ⟨.hbm, 70, rfl⟩
abbrev main_v40 : Ref sig .tc := ⟨.hbm, 71, rfl⟩
abbrev main_cst_19 : Ref sig .tc := ⟨.hbm, 72, rfl⟩
abbrev main_v41 : Ref sig .tc := ⟨.hbm, 73, rfl⟩
abbrev main_cst_20 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_21 : Ref sig .tc := ⟨.hbm, 78, rfl⟩
abbrev main_v45 : Ref sig .tc := ⟨.hbm, 79, rfl⟩

abbrev nD : Nat := 1
abbrev τ : Topo := Topo.v7x

variable {F : FTy → Type} [FloatOps F]

class Facts₀ : Prop where
  bcast_S_S16x16x256x256 : S_.BroadcastsInDim S16x16x256x256 (![] : Fin 0 → Fin S16x16x256x256.rank)
  reducesTo_S16x16x256x256_S16x256x256_d1 : S16x16x256x256.ReducesTo [1] S16x256x256
  h_S_ : 0 < S_.numel
  bcast_S16x256x256_S16x1x256x256_0_2_3 : S16x256x256.BroadcastsInDim S16x1x256x256 (![0, 2, 3] : Fin 3 → Fin S16x1x256x256.rank)
  reducesTo_S16x16x256x256_S16_d0_2_3 : S16x16x256x256.ReducesTo [0, 2, 3] S16
  bcast_S_S16 : S_.BroadcastsInDim S16 (![] : Fin 0 → Fin S16.rank)
  reducesTo_S16_S_d0 : S16.ReducesTo [0] S_
  bcast_S16x1x256x256_S16x16x256x256_0_1_2_3 : S16x1x256x256.BroadcastsInDim S16x16x256x256 (![0, 1, 2, 3] : Fin 4 → Fin S16x16x256x256.rank)

variable [Facts₀]

class Facts : Prop extends Facts₀ where

variable [Facts]
-- ==== Proof.KSteps.lean ====
/-
  The kernel body's arithmetic, gathered per accumulator.

  At every grid point the body adds, to each of its six per-feature accumulators, the tile's row-and-lane sum of one
  summand: `acc0` … `acc5` are those updates as functions of the three input blocks and the accumulator's contents
  before the point, each the composition of the body's printed payloads that computes it. At the first point the
  accumulators start from the zero block (`zeroAcc`); at the last point the body also writes the loss, `finish`, computed
  from the six updated accumulators.
-/
import proofs.«157307_j44032004718833_1_alg».proof.Proof.Gen.KernelIdeal.Skeleton

noncomputable section

namespace Cert.KernelIdeal.Steps

open Idealize.ShloMosaic Cert.KernelIdeal Cert.KernelIdeal.Gen

variable {F : FTy → Type} [FloatOps F]

/-- Σ |x − y|·m, added to accumulator 0. -/
def acc0 (x0 x1 : Vec F S1x16x128x256 .f32) (x2 : Vec F S1x16x128x256 .i32) (xs : Vec F S1x16x1x1 .f32) : Vec F S1x16x1x1 .f32 :=
  k0_pay19 (k0_pay18 x0 x1 x2 xs)
/-- Σ m, added to accumulator 1. -/
def acc1 (x2 : Vec F S1x16x128x256 .i32) (xs : Vec F S1x16x1x1 .f32) : Vec F S1x16x1x1 .f32 :=
  k0_pay20 (k0_pay15 x2) xs
/-- Σ |x − y|·(1 − m), added to accumulator 2. -/
def acc2 (x0 x1 : Vec F S1x16x128x256 .f32) (x2 : Vec F S1x16x128x256 .i32) (xs : Vec F S1x16x1x1 .f32) : Vec F S1x16x1x1 .f32 :=
  k0_pay21 (k0_pay14 x0 x1) (k0_pay16 x2) xs
/-- Σ (1 − m), added to accumulator 3. -/
def acc3 (x2 : Vec F S1x16x128x256 .i32) (xs : Vec F S1x16x1x1 .f32) : Vec F S1x16x1x1 .f32 :=
  k0_pay1 (k0_pay22 (k0_pay16 x2) xs)
/-- Σ |x − y|·(max over features of m), added to accumulator 4. -/
def acc4 (x0 x1 : Vec F S1x16x128x256 .f32) (x2 : Vec F S1x16x128x256 .i32) (xs : Vec F S1x16x1x1 .f32) : Vec F S1x16x1x1 .f32 :=
  k0_pay2 (k0_pay14 x0 x1) (k0_pay17 x2) xs
/-- Σ (max over features of m), added to accumulator 5. -/
def acc5 (x2 : Vec F S1x16x128x256 .i32) (xs : Vec F S1x16x1x1 .f32) : Vec F S1x16x1x1 .f32 :=
  k0_pay3 (k0_pay17 x2) xs

/-- The zero block the first point stores into every accumulator. -/
def zeroAcc : Vec F S1x16x1x1 .f32 := k0_pay5 (F := F)

/-- The loss from the six accumulators, as the last point computes it. -/
def finish (s0 s1 s2 s3 s4 s5 : Vec F S1x16x1x1 .f32) : Vec F S1x1 .f32 :=
  k0_pay4 (k0_pay11 s0 s1) (k0_pay12 s2 s3) (k0_pay13 s4 s5)

end Cert.KernelIdeal.Steps
-- ==== Proof.KPieces.lean ====
/-
  What each case of the kernel body leaves in its six per-feature accumulators and in the output block.

  The body runs in three cases: the first grid point (the accumulators are reset to the zero block, then updated),
  the points in between (updated from what the point before left) and the last point (updated, then the loss is
  computed from the updated accumulators and stored into the output block). The body's run records, per buffer, the
  stores it made as pieces; every accumulator is stored whole, so reading the pieces back gives the last store's value
  (over the first point's reset, which the update had read back). Each lemma names that value with the update functions
  of KSteps.lean: the first point leaves `accK … zero`, the later points `accK … (previous contents)`, and the last
  point's output block is `finish` of the six updated accumulators.
-/
import proofs.«157307_j44032004718833_1_alg».proof.Proof.Gen.KernelIdeal.Frame
import proofs.«157307_j44032004718833_1_alg».proof.Proof.KSteps
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Steps

variable {F : FTy → Type} [FloatOps F]

theorem hz4 : (![0, 0, 0, 0] : Fin 4 → Nat) = fun _ => 0 := funext fun a => by fin_cases a <;> rfl
theorem hz2 : (![0, 0] : Fin 2 → Nat) = fun _ => 0 := funext fun a => by fin_cases a <;> rfl

variable (c : Dev nD) (i : grid0.Coords)
  (arg2 : Memref sig .tc .vmem S1x16x128x256 .f32) (harg2 : arg2.IsWhole)
  (arg3 : Memref sig .tc .vmem S1x16x128x256 .f32) (harg3 : arg3.IsWhole)
  (arg4 : Memref sig .tc .vmem S1x16x128x256 .i32) (harg4 : arg4.IsWhole)
  (arg5 : Memref sig .tc .vmem S1x1 .f32) (harg5 : arg5.IsWhole)
  (arg6 : Memref sig .tc .vmem S1x16x1x1 .f32) (harg6 : arg6.IsWhole)
  (arg7 : Memref sig .tc .vmem S1x16x1x1 .f32) (harg7 : arg7.IsWhole)
  (arg8 : Memref sig .tc .vmem S1x16x1x1 .f32) (harg8 : arg8.IsWhole)
  (arg9 : Memref sig .tc .vmem S1x16x1x1 .f32) (harg9 : arg9.IsWhole)
  (arg10 : Memref sig .tc .vmem S1x16x1x1 .f32) (harg10 : arg10.IsWhole)
  (arg11 : Memref sig .tc .vmem S1x16x1x1 .f32) (harg11 : arg11.IsWhole)
  (x0 x1 : Vec F S1x16x128x256 .f32) (x2 : Vec F S1x16x128x256 .i32)

set_option hygiene false in
/-- A case's function applied to the point, the ten buffers and their wholeness facts. -/
local macro "at_bufs% " f:ident : term =>
  `($f c i arg2 harg2 arg3 harg3 arg4 harg4 arg5 harg5 arg6 harg6 arg7 harg7 arg8 harg8 arg9 harg9 arg10 harg10 arg11 harg11)

set_option hygiene false in
/-- The run's named values opened; a load of a whole buffer is its contents. -/
local macro "loads_whole" : tactic =>
  `(tactic| simp only [View.readAt_eq_ld, harg2.read_unread, harg3.read_unread, harg4.read_unread, harg6.read_unread,
      harg7.read_unread, harg8.read_unread, harg9.read_unread, harg10.read_unread, harg11.read_unread,
      View.ld_unit_zero (S := S1x16x128x256) hz4, View.ld_unit_zero (S := S1x16x1x1) hz4,
      View.readCov_unit_zero (S := S1x16x1x1) _ hz4])

/-- One whole store: the pieces read back are its value. -/
local macro "one_store" : tactic =>
  `(tactic| (dsimp only; sl_unfold_words; rw [View.canon_unit_zero hz4]; loads_whole; rfl))

/-- The reset, read back by the update, then the update's whole store. -/
local macro "reset_then_store" : tactic =>
  `(tactic| (dsimp only; sl_unfold_words
             rw [View.canon_cons_unit_zero (S := S1x16x1x1) hz4, View.readCov_unit_zero (S := S1x16x1x1) _ hz4]
             loads_whole; rfl))

/-! ## The first point: reset, then update -/

section First
variable (hc0 : cond0_0 i) (hc1 : ¬cond0_1 i)

theorem first_0 : (at_bufs% sout0_A_0) hc0 hc1 x0 x1 x2 = acc0 x0 x1 x2 (k0_pay5 (F := F)) := by
  unfold sout0_A_0; rw [View.read_writes_eq_canon _ _ _ ((at_bufs% scover0_A_0) hc0 hc1 x0 x1 x2)]; unfold kernelRun0_A
  reset_then_store
theorem first_1 : (at_bufs% sout0_A_1) hc0 hc1 x0 x1 x2 = acc1 x2 (k0_pay6 (F := F)) := by
  unfold sout0_A_1; rw [View.read_writes_eq_canon _ _ _ ((at_bufs% scover0_A_1) hc0 hc1 x0 x1 x2)]; unfold kernelRun0_A
  reset_then_store
theorem first_2 : (at_bufs% sout0_A_2) hc0 hc1 x0 x1 x2 = acc2 x0 x1 x2 (k0_pay7 (F := F)) := by
  unfold sout0_A_2; rw [View.read_writes_eq_canon _ _ _ ((at_bufs% scover0_A_2) hc0 hc1 x0 x1 x2)]; unfold kernelRun0_A
  reset_then_store
theorem first_3 : (at_bufs% sout0_A_3) hc0 hc1 x0 x1 x2 = acc3 x2 (k0_pay8 (F := F)) := by
  unfold sout0_A_3; rw [View.read_writes_eq_canon _ _ _ ((at_bufs% scover0_A_3) hc0 hc1 x0 x1 x2)]; unfold kernelRun0_A
  reset_then_store
theorem first_4 : (at_bufs% sout0_A_4) hc0 hc1 x0 x1 x2 = acc4 x0 x1 x2 (k0_pay9 (F := F)) := by
  unfold sout0_A_4; rw [View.read_writes_eq_canon _ _ _ ((at_bufs% scover0_A_4) hc0 hc1 x0 x1 x2)]; unfold kernelRun0_A
  reset_then_store
theorem first_5 : (at_bufs% sout0_A_5) hc0 hc1 x0 x1 x2 = acc5 x2 (k0_pay10 (F := F)) := by
  unfold sout0_A_5; rw [View.read_writes_eq_canon _ _ _ ((at_bufs% scover0_A_5) hc0 hc1 x0 x1 x2)]; unfold kernelRun0_A
  reset_then_store

end First

variable (xs0 xs1 xs2 xs3 xs4 xs5 : Vec F S1x16x1x1 .f32)

/-! ## A point in between: update what the point before left -/

section Middle
variable (hc0 : ¬cond0_0 i) (hc1 : ¬cond0_1 i)

theorem middle_0 : (at_bufs% sout0_B_0) hc0 hc1 x0 x1 x2 xs0 xs1 xs2 xs3 xs4 xs5 = acc0 x0 x1 x2 xs0 := by
  unfold sout0_B_0; rw [View.read_writes_eq_canon _ _ _ ((at_bufs% scover0_B_0) hc0 hc1 x0 x1 x2 xs0 xs1 xs2 xs3 xs4 xs5)]; unfold kernelRun0_B
  one_store
theorem middle_1 : (at_bufs% sout0_B_1) hc0 hc1 x0 x1 x2 xs0 xs1 xs2 xs3 xs4 xs5 = acc1 x2 xs1 := by
  unfold sout0_B_1; rw [View.read_writes_eq_canon _ _ _ ((at_bufs% scover0_B_1) hc0 hc1 x0 x1 x2 xs0 xs1 xs2 xs3 xs4 xs5)]; unfold kernelRun0_B
  one_store
theorem middle_2 : (at_bufs% sout0_B_2) hc0 hc1 x0 x1 x2 xs0 xs1 xs2 xs3 xs4 xs5 = acc2 x0 x1 x2 xs2 := by
  unfold sout0_B_2; rw [View.read_writes_eq_canon _ _ _ ((at_bufs% scover0_B_2) hc0 hc1 x0 x1 x2 xs0 xs1 xs2 xs3 xs4 xs5)]; unfold kernelRun0_B
  one_store
theorem middle_3 : (at_bufs% sout0_B_3) hc0 hc1 x0 x1 x2 xs0 xs1 xs2 xs3 xs4 xs5 = acc3 x2 xs3 := by
  unfold sout0_B_3; rw [View.read_writes_eq_canon _ _ _ ((at_bufs% scover0_B_3) hc0 hc1 x0 x1 x2 xs0 xs1 xs2 xs3 xs4 xs5)]; unfold kernelRun0_B
  one_store
theorem middle_4 : (at_bufs% sout0_B_4) hc0 hc1 x0 x1 x2 xs0 xs1 xs2 xs3 xs4 xs5 = acc4 x0 x1 x2 xs4 := by
  unfold sout0_B_4; rw [View.read_writes_eq_canon _ _ _ ((at_bufs% scover0_B_4) hc0 hc1 x0 x1 x2 xs0 xs1 xs2 xs3 xs4 xs5)]; unfold kernelRun0_B
  one_store
theorem middle_5 : (at_bufs% sout0_B_5) hc0 hc1 x0 x1 x2 xs0 xs1 xs2 xs3 xs4 xs5 = acc5 x2 xs5 := by
  unfold sout0_B_5; rw [View.read_writes_eq_canon _ _ _ ((at_bufs% scover0_B_5) hc0 hc1 x0 x1 x2 xs0 xs1 xs2 xs3 xs4 xs5)]; unfold kernelRun0_B
  one_store

end Middle

/-! ## The last point: update, then the loss into the output block -/

section Last
variable (hc0 : ¬cond0_0 i) (hc1 : cond0_1 i)

theorem last_0 : (at_bufs% sout0_C_0) hc0 hc1 x0 x1 x2 xs0 xs1 xs2 xs3 xs4 xs5 = acc0 x0 x1 x2 xs0 := by
  unfold sout0_C_0; rw [View.read_writes_eq_canon _ _ _ ((at_bufs% scover0_C_0) hc0 hc1 x0 x1 x2 xs0 xs1 xs2 xs3 xs4 xs5)]; unfold kernelRun0_C
  one_store
theorem last_1 : (at_bufs% sout0_C_1) hc0 hc1 x0 x1 x2 xs0 xs1 xs2 xs3 xs4 xs5 = acc1 x2 xs1 := by
  unfold sout0_C_1; rw [View.read_writes_eq_canon _ _ _ ((at_bufs% scover0_C_1) hc0 hc1 x0 x1 x2 xs0 xs1 xs2 xs3 xs4 xs5)]; unfold kernelRun0_C
  one_store
theorem last_2 : (at_bufs% sout0_C_2) hc0 hc1 x0 x1 x2 xs0 xs1 xs2 xs3 xs4 xs5 = acc2 x0 x1 x2 xs2 := by
  unfold sout0_C_2; rw [View.read_writes_eq_canon _ _ _ ((at_bufs% scover0_C_2) hc0 hc1 x0 x1 x2 xs0 xs1 xs2 xs3 xs4 xs5)]; unfold kernelRun0_C
  one_store
theorem last_3 : (at_bufs% sout0_C_3) hc0 hc1 x0 x1 x2 xs0 xs1 xs2 xs3 xs4 xs5 = acc3 x2 xs3 := by
  unfold sout0_C_3; rw [View.read_writes_eq_canon _ _ _ ((at_bufs% scover0_C_3) hc0 hc1 x0 x1 x2 xs0 xs1 xs2 xs3 xs4 xs5)]; unfold kernelRun0_C
  one_store
theorem last_4 : (at_bufs% sout0_C_4) hc0 hc1 x0 x1 x2 xs0 xs1 xs2 xs3 xs4 xs5 = acc4 x0 x1 x2 xs4 := by
  unfold sout0_C_4; rw [View.read_writes_eq_canon _ _ _ ((at_bufs% scover0_C_4) hc0 hc1 x0 x1 x2 xs0 xs1 xs2 xs3 xs4 xs5)]; unfold kernelRun0_C
  one_store
theorem last_5 : (at_bufs% sout0_C_5) hc0 hc1 x0 x1 x2 xs0 xs1 xs2 xs3 xs4 xs5 = acc5 x2 xs5 := by
  unfold sout0_C_5; rw [View.read_writes_eq_canon _ _ _ ((at_bufs% scover0_C_5) hc0 hc1 x0 x1 x2 xs0 xs1 xs2 xs3 xs4 xs5)]; unfold kernelRun0_C
  one_store

/-- The output block: the loss of the six accumulators as the last point has just updated them. -/
theorem last_out : (at_bufs% out0_C_3) hc0 hc1 x0 x1 x2 xs0 xs1 xs2 xs3 xs4 xs5
    = finish (acc0 x0 x1 x2 xs0) (acc1 x2 xs1) (acc2 x0 x1 x2 xs2) (acc3 x2 xs3) (acc4 x0 x1 x2 xs4) (acc5 x2 xs5) := by
  unfold out0_C_3; rw [View.read_writes_eq_canon _ _ _ ((at_bufs% cover0_C_3) hc0 hc1 x0 x1 x2 xs0 xs1 xs2 xs3 xs4 xs5)]; unfold kernelRun0_C
  dsimp only; sl_unfold_words; rw [View.canon_unit_zero hz2]; loads_whole; rfl

end Last

/-- The zero blocks the first point stores are one value. -/
theorem zero_eq_0 : (k0_pay5 (F := F)) = zeroAcc := rfl
theorem zero_eq_1 : (k0_pay6 (F := F)) = zeroAcc := rfl
theorem zero_eq_2 : (k0_pay7 (F := F)) = zeroAcc := rfl
theorem zero_eq_3 : (k0_pay8 (F := F)) = zeroAcc := rfl
theorem zero_eq_4 : (k0_pay9 (F := F)) = zeroAcc := rfl
theorem zero_eq_5 : (k0_pay10 (F := F)) = zeroAcc := rfl

end Cert.KernelIdeal.Pieces
-- ==== Proof.Spec.lean ====
/-
  The masked mean-absolute-difference loss, as one function of the three argument arrays over the extended reals.

  `X`, `Y` : [16, 16, 256, 256] numbers, `M` : [16, 16, 256, 256] mask bits, indexed (batch b, feature f, row h, lane w).
  With d = |X − Y| and m the mask bit read as 0 or 1, three weightings of d are averaged per feature:
    the feature's own mask          m(b, f, h, w),
    its complement                  1 − m(b, f, h, w),
    "any feature is set here"       max over f' of m(b, f', h, w)   (the same for every f).
  For a weighting u the per-feature mean is  s(f) / max(c(f), 1)  where c(f) > 0, else 0, with
    s(f) = Σ_{b,h,w} d·u   and   c(f) = Σ_{b,h,w} u;
  the loss is ((mean_f own + mean_f any) + mean_f complement) / 3, each mean_f a sum over the 16 features divided by 16.
  The literals are kept as the f32 words the two programs print (0x3F800000 = 1, 0x41800000 = 16, 0x40400000 = 3,
  0xFF800000 = −∞); the same word stands on both sides and is never evaluated, the zero word apart.
-/
import Idealize.ShloMosaic.Lib.ValueIdx
import Idealize.ShloMosaic.PureOps.Ideal.Laws

noncomputable section

open scoped BigOperators

namespace Cert.MaskedLoss

open Idealize.ShloMosaic Idealize.ShloMosaic.ValueIdx

/-- The arrays' shape. -/
abbrev Arr : Shape := ⟨4, ![16, 16, 256, 256]⟩

/-- A mask bit read as the number 0 or 1. -/
def bitf (b : BitVec 1) : EReal := ((b.toNat : ℝ) : EReal)

/-- The f32 words of the two programs, as extended reals. -/
abbrev zeroW : EReal := Ideal.ofBits .f32 0x00000000#32
abbrev oneW : EReal := Ideal.ofBits .f32 0x3F800000#32
abbrev sixteenW : EReal := Ideal.ofBits .f32 0x41800000#32
abbrev threeW : EReal := Ideal.ofBits .f32 0x40400000#32
abbrev negInfW : EReal := Ideal.ofBits .f32 0xFF800000#32

section Terms

variable (X Y : Arr.Idx → EReal) (M : Arr.Idx → BitVec 1)

/-- |X − Y| at an element. -/
def absDiff (b f : Fin 16) (h w : Fin 256) : EReal :=
  max (X (ix4 b f h w) - Y (ix4 b f h w)) (-(X (ix4 b f h w) - Y (ix4 b f h w)))
/-- The feature's own mask, 0 or 1. -/
def own (b f : Fin 16) (h w : Fin 256) : EReal := bitf (M (ix4 b f h w))
/-- Its complement, 1 − m. -/
def compl (b f : Fin 16) (h w : Fin 256) : EReal := oneW - bitf (M (ix4 b f h w))
/-- Whether any feature's mask is set at (b, h, w): the largest of the sixteen bits, from −∞. -/
def anySet (b : Fin 16) (h w : Fin 256) : EReal :=
  (Finset.univ : Finset (Fin 16)).fold max negInfW (fun f' => bitf (M (ix4 b f' h w)))

/-- The six summands, by number: weighted differences (even) and weights (odd), for own / complement / any. -/
def term : Fin 6 → Fin 16 → Fin 16 → Fin 256 → Fin 256 → EReal
  | 0 => fun b f h w => absDiff X Y b f h w * own M b f h w
  | 1 => fun b f h w => own M b f h w
  | 2 => fun b f h w => absDiff X Y b f h w * compl M b f h w
  | 3 => fun b f h w => compl M b f h w
  | 4 => fun b f h w => absDiff X Y b f h w * anySet M b h w
  | 5 => fun b _ h w => anySet M b h w

/-- A summand's per-feature total over batch entries, rows and lanes, from zero. -/
def total (k : Fin 6) (f : Fin 16) : EReal :=
  zeroW + ∑ b : Fin 16, ∑ h : Fin 256, ∑ w : Fin 256, term X Y M k b f h w

end Terms

/-- The guarded quotient: s / max(c, 1) where c > 0, else 0. -/
def guardedMean (s c : Fin 16 → EReal) (f : Fin 16) : EReal :=
  Scalar.select (FloatOps.cmpf (F := Ideal) (φ := .f32) .ogt (c f) zeroW) (Ideal.div (s f) (max (c f) oneW)) zeroW

/-- The mean over the sixteen features. -/
def featMean (p : Fin 16 → EReal) : EReal := Ideal.div (∑ f : Fin 16, p f) sixteenW

/-- The loss from the six per-feature totals (s, c for own; for complement; for any). -/
def lossOf (s0 c0 s1 c1 s2 c2 : Fin 16 → EReal) : EReal :=
  Ideal.div ((featMean (guardedMean s0 c0) + featMean (guardedMean s2 c2)) + featMean (guardedMean s1 c1)) threeW

/-- The loss of the three arrays. -/
def loss (X Y : Arr.Idx → EReal) (M : Arr.Idx → BitVec 1) : EReal :=
  lossOf (total X Y M 0) (total X Y M 1) (total X Y M 2) (total X Y M 3) (total X Y M 4) (total X Y M 5)

end Cert.MaskedLoss
-- ==== Proof.BlockSpec.lean ====
/-
  One tile of the masked loss: what a [1, 16, 128, 256] block of the arrays adds to each per-feature total.

  A block holds, for one batch entry, all 16 features of 128 rows. Its mask operand arrives as 32-bit words (the mask bit
  widened on the host); the kernel reads a word as the number 1 where it is not zero, else 0 (`wordf`). For a block
  `x`, `y` of numbers and `mk` of mask words the six summands at (feature f, row r, lane w) are those of the whole
  arrays (Spec.lean's `term`) with the block in place of the arrays: |x − y| times the weight, or the weight alone,
  for the weights own / complement / any-feature-set. `wordf` of a widened bit is the bit's number (`wordf_setWidth`).
-/
import proofs.«157307_j44032004718833_1_alg».proof.Proof.Spec

noncomputable section

open scoped BigOperators

namespace Cert.MaskedLoss

open Idealize.ShloMosaic Idealize.ShloMosaic.ValueIdx

/-- A tile's shape, and the shape of a per-feature accumulator. -/
abbrev Blk : Shape := ⟨4, ![1, 16, 128, 256]⟩
abbrev Acc : Shape := ⟨4, ![1, 16, 1, 1]⟩

/-- A mask word read as a number: 1 where the word is not zero, else 0 (compare with zero, widen, convert). -/
def wordf (v : BitVec 32) : EReal := FloatOps.sitofp (F := Ideal) .f32 ((IntOp.cmpi .ne v 0#32).setWidth 32)

/-- The word of a widened mask bit reads as the bit's number. -/
theorem wordf_setWidth (b : BitVec 1) : wordf (b.setWidth 32) = bitf b := by
  rcases BitVec.eq_zero_or_eq_one b with h | h <;> subst h
  · show ((((IntOp.cmpi .ne ((0#1 : BitVec 1).setWidth 32) 0#32).setWidth 32).toInt : ℝ) : EReal) = ((((0#1 : BitVec 1).toNat : ℕ) : ℝ) : EReal)
    rw [show ((IntOp.cmpi .ne ((0#1 : BitVec 1).setWidth 32) 0#32).setWidth 32).toInt = 0 from by decide,
      show (0#1 : BitVec 1).toNat = 0 from by decide]
    simp
  · show ((((IntOp.cmpi .ne ((1#1 : BitVec 1).setWidth 32) 0#32).setWidth 32).toInt : ℝ) : EReal) = ((((1#1 : BitVec 1).toNat : ℕ) : ℝ) : EReal)
    rw [show ((IntOp.cmpi .ne ((1#1 : BitVec 1).setWidth 32) 0#32).setWidth 32).toInt = 1 from by decide,
      show (1#1 : BitVec 1).toNat = 1 from by decide]
    simp

section Terms

variable (x y : Blk.Idx → EReal) (mk : Blk.Idx → BitVec 32)

/-- |x − y| at an element of the tile. -/
def bAbs (f : Fin 16) (r : Fin 128) (w : Fin 256) : EReal :=
  max (x (ix4 0 f r w) - y (ix4 0 f r w)) (-(x (ix4 0 f r w) - y (ix4 0 f r w)))
def bOwn (f : Fin 16) (r : Fin 128) (w : Fin 256) : EReal := wordf (mk (ix4 0 f r w))
def bCompl (f : Fin 16) (r : Fin 128) (w : Fin 256) : EReal := oneW - wordf (mk (ix4 0 f r w))
def bAny (r : Fin 128) (w : Fin 256) : EReal :=
  (Finset.univ : Finset (Fin 16)).fold max negInfW (fun f' => wordf (mk (ix4 0 f' r w)))

/-- The six summands of a tile, numbered as the arrays' (Spec.lean `term`). -/
def bterm : Fin 6 → Fin 16 → Fin 128 → Fin 256 → EReal
  | 0 => fun f r w => bAbs x y f r w * bOwn mk f r w
  | 1 => fun f r w => bOwn mk f r w
  | 2 => fun f r w => bAbs x y f r w * bCompl mk f r w
  | 3 => fun f r w => bCompl mk f r w
  | 4 => fun f r w => bAbs x y f r w * bAny mk r w
  | 5 => fun _ r w => bAny mk r w

end Terms

end Cert.MaskedLoss
-- ==== Proof.KStepValue.lean ====
/-
  The kernel body's arithmetic read at an index, over the extended reals.

  Each accumulator update is the accumulator's old value at a feature plus a sum over the tile's 128 rows and 256 lanes of
  one summand: the body sums the lanes first (a reduction over axis 3), views the [1,16,128] result as [1,16,128,1],
  sums the rows (axis 2) and views the [1,16,1] result as [1,16,1,1]. `rowLaneSum` reads that chain at feature f as the
  double sum; the six updates then differ only in the summand, which is read elementwise. The "any feature" weight is
  a maximum over the feature axis broadcast back over it (`anyWord_apply`). The last point's loss is three sums over the
  feature axis of guarded quotients, divided by 16, added and divided by 3 (`featSum`, `finish_apply`).
-/
import proofs.«157307_j44032004718833_1_alg».proof.Proof.KSteps
import proofs.«157307_j44032004718833_1_alg».proof.Proof.BlockSpec
import Idealize.ShloMosaic.Lib.Pipeline.Value

noncomputable section

open scoped BigOperators

namespace Cert.KernelIdeal.Steps

open Idealize.ShloMosaic Idealize.ShloMosaic.ValueIdx Cert.KernelIdeal Cert.KernelIdeal.Gen Cert.MaskedLoss

/-! ## The reduced index with its coordinate put back -/

/-- Over (0, f, r) of the lane-summed block, lane w: the element (0, f, r, w). -/
theorem lift_lane (h : S1x16x128x256.Reduces [3] S1x16x128) (f : Fin 16) (r : Fin 128) (w : Fin 256) :
    h.lift (ix3 0 f r) w = ix4 0 f r w := by
  funext c
  match c with
  | ⟨0, _⟩ => rfl
  | ⟨1, _⟩ => rfl
  | ⟨2, _⟩ => rfl
  | ⟨3, _⟩ => rfl

/-- Over (0, f, 0) of the row-summed block, row r: the element (0, f, r, 0). -/
theorem lift_row (h : S1x16x128x1.Reduces [2] S1x16x1) (f : Fin 16) (r : Fin 128) :
    h.lift (ix3 0 f 0) r = ix4 0 f r 0 := by
  funext c
  match c with
  | ⟨0, _⟩ => rfl
  | ⟨1, _⟩ => rfl
  | ⟨2, _⟩ => rfl
  | ⟨3, _⟩ => rfl

/-- Over (0, r, w) of the feature-maximum block, feature f: the element (0, f, r, w). -/
theorem lift_feat (h : S1x16x128x256.Reduces [1] S1x128x256) (f : Fin 16) (r : Fin 128) (w : Fin 256) :
    h.lift (ix3 0 r w) f = ix4 0 f r w := by
  funext c
  match c with
  | ⟨0, _⟩ => rfl
  | ⟨1, _⟩ => rfl
  | ⟨2, _⟩ => rfl
  | ⟨3, _⟩ => rfl

/-- Over (0, 0, 0) of the feature-summed accumulator, feature f: the element (0, f, 0, 0). -/
theorem lift_acc (h : S1x16x1x1.Reduces [1] S1x1x1) (f : Fin 16) :
    h.lift (ix3 0 0 0) f = ix4 0 f 0 0 := by
  funext c
  match c with
  | ⟨0, _⟩ => rfl
  | ⟨1, _⟩ => rfl
  | ⟨2, _⟩ => rfl
  | ⟨3, _⟩ => rfl

/-! ## The row-and-lane sum -/

/-- Lanes summed, then rows, through the two unit-axis views: at feature f the double sum over rows and lanes. -/
theorem rowLaneSum (v : FVec Ideal S1x16x128x256 .f32) (f : Fin 16)
    (h1 : S1x16x128x256.Reduces [3] S1x16x128) (h2 : S1x16x128.ShapeCasts S1x16x128x1)
    (h3 : S1x16x128x1.Reduces [2] S1x16x1) (h4 : S1x16x1.ShapeCasts S1x16x1x1) :
    shapeCast S1x16x1x1 (multiReduction (F := Ideal) .add [2] S1x16x1 (shapeCast S1x16x128x1 (multiReduction (F := Ideal) .add [3] S1x16x128 v 0x00000000#32 h1 (.inl rfl) rfl) h2) 0x00000000#32 h3 (.inl rfl) rfl) h4 (ix4 0 f 0 0)
      = ∑ r : Fin 128, ∑ w : Fin 256, v (ix4 0 f r w) := by
  refine (shapeCast_apply _ _ (ix4 0 f 0 0) (ix3 0 f 0) ?_).trans ?_
  · rw [Shape.rowMajor_val_three, Shape.rowMajor_val_four]
    show ((0 : ℕ) * 16 + f.val) * 1 + 0 = ((((0 : ℕ) * 16 + f.val) * 1 + 0) * 1 + 0)
    omega
  refine (Ideal.multiReduction_add_single _ _ _ _ _ _).trans ?_
  show ∑ r : Fin 128, _ = _
  refine Finset.sum_congr rfl fun r _ => ?_
  rw [lift_row]
  refine (shapeCast_apply _ _ (ix4 0 f r 0) (ix3 0 f r) ?_).trans ?_
  · rw [Shape.rowMajor_val_three, Shape.rowMajor_val_four]
    show ((0 : ℕ) * 16 + f.val) * 128 + r.val = ((((0 : ℕ) * 16 + f.val) * 128 + r.val) * 1 + 0)
    omega
  refine (Ideal.multiReduction_add_single _ _ _ _ _ _).trans ?_
  show ∑ w : Fin 256, _ = _
  refine Finset.sum_congr rfl fun w _ => ?_
  rw [lift_lane]

/-! ## The six updates -/

theorem acc0_apply (x0 x1 : Vec Ideal S1x16x128x256 .f32) (x2 : Vec Ideal S1x16x128x256 .i32) (xs : Vec Ideal S1x16x1x1 .f32) (f : Fin 16) :
    acc0 (F := Ideal) x0 x1 x2 xs (ix4 0 f 0 0) = xs (ix4 0 f 0 0) + ∑ r : Fin 128, ∑ w : Fin 256, bterm x0 x1 x2 0 f r w := by
  simp only [acc0, k0_pay19, k0_pay18, shapeCast_self, addf_apply]
  rw [rowLaneSum]
  refine congrArg (xs (ix4 0 f 0 0) + ·) (Finset.sum_congr rfl fun r _ => Finset.sum_congr rfl fun w _ => ?_)
  rfl
theorem acc1_apply (x0 x1 : Vec Ideal S1x16x128x256 .f32) (x2 : Vec Ideal S1x16x128x256 .i32) (xs : Vec Ideal S1x16x1x1 .f32) (f : Fin 16) :
    acc1 (F := Ideal) x2 xs (ix4 0 f 0 0) = xs (ix4 0 f 0 0) + ∑ r : Fin 128, ∑ w : Fin 256, bterm x0 x1 x2 1 f r w := by
  simp only [acc1, k0_pay20, shapeCast_self, addf_apply]
  rw [rowLaneSum]
  refine congrArg (xs (ix4 0 f 0 0) + ·) (Finset.sum_congr rfl fun r _ => Finset.sum_congr rfl fun w _ => ?_)
  rfl
theorem acc2_apply (x0 x1 : Vec Ideal S1x16x128x256 .f32) (x2 : Vec Ideal S1x16x128x256 .i32) (xs : Vec Ideal S1x16x1x1 .f32) (f : Fin 16) :
    acc2 (F := Ideal) x0 x1 x2 xs (ix4 0 f 0 0) = xs (ix4 0 f 0 0) + ∑ r : Fin 128, ∑ w : Fin 256, bterm x0 x1 x2 2 f r w := by
  simp only [acc2, k0_pay21, shapeCast_self, addf_apply]
  rw [rowLaneSum]
  refine congrArg (xs (ix4 0 f 0 0) + ·) (Finset.sum_congr rfl fun r _ => Finset.sum_congr rfl fun w _ => ?_)
  rfl
theorem acc3_apply (x0 x1 : Vec Ideal S1x16x128x256 .f32) (x2 : Vec Ideal S1x16x128x256 .i32) (xs : Vec Ideal S1x16x1x1 .f32) (f : Fin 16) :
    acc3 (F := Ideal) x2 xs (ix4 0 f 0 0) = xs (ix4 0 f 0 0) + ∑ r : Fin 128, ∑ w : Fin 256, bterm x0 x1 x2 3 f r w := by
  simp only [acc3, k0_pay1, k0_pay22, shapeCast_self, addf_apply]
  rw [rowLaneSum]
  refine congrArg (xs (ix4 0 f 0 0) + ·) (Finset.sum_congr rfl fun r _ => Finset.sum_congr rfl fun w _ => ?_)
  rfl

/-- The broadcast maximum over the feature axis of the mask words' numbers, at any feature: the tile's "any" weight. -/
theorem anyWord_apply (x2 : Vec Ideal S1x16x128x256 .i32) (f : Fin 16) (r : Fin 128) (w : Fin 256) :
    k0_pay17 (F := Ideal) x2 (ix4 0 f r w) = bAny x2 r w := by
  simp only [k0_pay17]
  refine (broadcastTo_apply _ _ (ix4 0 f r w) (ix4 0 0 r w) ?_).trans ?_
  · intro a
    match a with
    | ⟨0, _⟩ => rfl
    | ⟨1, _⟩ => rfl
    | ⟨2, _⟩ => rfl
    | ⟨3, _⟩ => rfl
  rw [shapeCast_self]
  refine (shapeCast_apply _ _ (ix4 0 0 r w) (ix3 0 r w) ?_).trans ?_
  · rw [Shape.rowMajor_val_three, Shape.rowMajor_val_four]
    show ((0 : ℕ) * 128 + r.val) * 256 + w.val = ((((0 : ℕ) * 1 + 0) * 128 + r.val) * 256 + w.val)
    omega
  refine (Ideal.multiReduction_maximumf_single _ _ _ _ _ _).trans ?_
  show (Finset.univ : Finset (Fin 16)).fold max negInfW _ = (Finset.univ : Finset (Fin 16)).fold max negInfW _
  refine congrArg (fun g : Fin 16 → EReal => (Finset.univ : Finset (Fin 16)).fold max negInfW g) (funext fun f' : Fin 16 => ?_)
  exact (congrArg (k0_pay15 (F := Ideal) x2) (lift_feat _ f' r w)).trans rfl

theorem acc4_apply (x0 x1 : Vec Ideal S1x16x128x256 .f32) (x2 : Vec Ideal S1x16x128x256 .i32) (xs : Vec Ideal S1x16x1x1 .f32) (f : Fin 16) :
    acc4 (F := Ideal) x0 x1 x2 xs (ix4 0 f 0 0) = xs (ix4 0 f 0 0) + ∑ r : Fin 128, ∑ w : Fin 256, bterm x0 x1 x2 4 f r w := by
  simp only [acc4, k0_pay2, shapeCast_self, addf_apply]
  rw [rowLaneSum]
  refine congrArg (xs (ix4 0 f 0 0) + ·) (Finset.sum_congr rfl fun r _ => Finset.sum_congr rfl fun w _ => ?_)
  rw [mulf_apply, anyWord_apply]
  rfl
theorem acc5_apply (x0 x1 : Vec Ideal S1x16x128x256 .f32) (x2 : Vec Ideal S1x16x128x256 .i32) (xs : Vec Ideal S1x16x1x1 .f32) (f : Fin 16) :
    acc5 (F := Ideal) x2 xs (ix4 0 f 0 0) = xs (ix4 0 f 0 0) + ∑ r : Fin 128, ∑ w : Fin 256, bterm x0 x1 x2 5 f r w := by
  simp only [acc5, k0_pay3, shapeCast_self, addf_apply]
  rw [rowLaneSum]
  refine congrArg (xs (ix4 0 f 0 0) + ·) (Finset.sum_congr rfl fun r _ => Finset.sum_congr rfl fun w _ => ?_)
  rw [anyWord_apply]
  rfl

/-! ## The zero block and the loss -/

theorem zeroAcc_apply (i : S1x16x1x1.Idx) : zeroAcc (F := Ideal) i = zeroW := by
  simp only [zeroAcc, k0_pay5, shapeCast_self]
  rfl

/-- The sum over the feature axis through its unit-axis view, at the one index: the sum over the sixteen features. -/
theorem featSum (v : FVec Ideal S1x16x1x1 .f32) (h1 : S1x16x1x1.Reduces [1] S1x1x1) (h2 : S1x1x1.ShapeCasts S1x1x1x1) :
    shapeCast S1x1x1x1 (multiReduction (F := Ideal) .add [1] S1x1x1 v 0x00000000#32 h1 (.inl rfl) rfl) h2 (ix4 0 0 0 0)
      = ∑ f : Fin 16, v (ix4 0 f 0 0) := by
  refine (shapeCast_apply _ _ (ix4 0 0 0 0) (ix3 0 0 0) ?_).trans ?_
  · rw [Shape.rowMajor_val_three, Shape.rowMajor_val_four]
    rfl
  refine (Ideal.multiReduction_add_single _ _ _ _ _ _).trans ?_
  show ∑ f : Fin 16, _ = _
  refine Finset.sum_congr rfl fun f _ => ?_
  rw [lift_acc]

theorem finish_apply (s0 s1 s2 s3 s4 s5 : Vec Ideal S1x16x1x1 .f32) (i : S1x1.Idx) :
    finish (F := Ideal) s0 s1 s2 s3 s4 s5 i
      = lossOf (fun f => s0 (ix4 0 f 0 0)) (fun f => s1 (ix4 0 f 0 0)) (fun f => s2 (ix4 0 f 0 0))
          (fun f => s3 (ix4 0 f 0 0)) (fun f => s4 (ix4 0 f 0 0)) (fun f => s5 (ix4 0 f 0 0)) := by
  have hi : i = ix2 0 0 := by
    funext a
    match a with
    | ⟨0, _⟩ => exact Fin.ext (by show (i 0).val = 0; have := idx2_lt0 i; omega)
    | ⟨1, _⟩ => exact Fin.ext (by show (i 1).val = 0; have := idx2_lt1 i; omega)
  subst hi
  simp only [finish, k0_pay4]
  refine (shapeCast_apply _ _ (ix2 0 0) (ix4 0 0 0 0) ?_).trans ?_
  · rw [Shape.rowMajor_val_two, Shape.rowMajor_val_four]
    rfl
  simp only [divf_apply, addf_apply, broadcast_apply]
  rw [featSum, featSum, featSum]
  rfl

end Cert.KernelIdeal.Steps
-- ==== Proof.SumLaws.lean ====
/-
  Sums over the extended reals (any commutative additive monoid), as the masked loss needs them.

  The kernel walks the [16, 16, 256, 256] arrays in 32 tiles of 128 rows: tile `t` is batch entry `t / 2`, rows
  `128 * (t % 2) … 128 * (t % 2) + 127`. Every per-feature total it accumulates is a sum over tiles of a sum over a
  tile's rows; the reference sums over batch entries and all 256 rows at once. Addition being commutative and
  associative, the two are one sum: `pointRow` is the bijection (tile, row in tile) ↔ (batch entry, row) and
  `sum_points_rows` the re-indexing. `chain_eq_sum` says that a running total which starts at `z + g 0` and adds
  `g (n + 1)` at each later step is `z` plus the sum of the addends so far.
-/
import Idealize.ShloMosaic.PureOps.Ideal

open scoped BigOperators

namespace Cert.MaskedLoss

/-- (tile, row within the tile) ↔ (batch entry, row): tile `t` holds rows `128 * (t % 2) + r` of batch entry `t / 2`. -/
def pointRow : Fin 32 × Fin 128 ≃ Fin 16 × Fin 256 where
  toFun p := (⟨p.1.val / 2, by have := p.1.isLt; omega⟩, ⟨128 * (p.1.val % 2) + p.2.val, by have := p.2.isLt; omega⟩)
  invFun q := (⟨2 * q.1.val + q.2.val / 128, by have := q.1.isLt; have := q.2.isLt; omega⟩, ⟨q.2.val % 128, by omega⟩)
  left_inv p := by
    obtain ⟨⟨t, ht⟩, ⟨r, hr⟩⟩ := p
    refine Prod.ext (Fin.ext ?_) (Fin.ext ?_)
    · show 2 * (t / 2) + (128 * (t % 2) + r) / 128 = t; omega
    · show (128 * (t % 2) + r) % 128 = r; omega
  right_inv q := by
    obtain ⟨⟨b, hb⟩, ⟨h, hh⟩⟩ := q
    refine Prod.ext (Fin.ext ?_) (Fin.ext ?_)
    · show (2 * b + h / 128) / 2 = b; omega
    · show 128 * ((2 * b + h / 128) % 2) + h % 128 = h; omega

theorem pointRow_fst (t : Fin 32) (r : Fin 128) : ((pointRow (t, r)).1 : Nat) = t.val / 2 := rfl
theorem pointRow_snd (t : Fin 32) (r : Fin 128) : ((pointRow (t, r)).2 : Nat) = 128 * (t.val % 2) + r.val := rfl

/-- Summing over the tiles and each tile's rows is summing over the batch entries and all rows. -/
theorem sum_points_rows {β : Type*} [AddCommMonoid β] (G : Fin 16 → Fin 256 → β) :
    ∑ t : Fin 32, ∑ r : Fin 128, G (pointRow (t, r)).1 (pointRow (t, r)).2 = ∑ b : Fin 16, ∑ h : Fin 256, G b h := by
  have e1 : ∑ t : Fin 32, ∑ r : Fin 128, G (pointRow (t, r)).1 (pointRow (t, r)).2
      = ∑ p : Fin 32 × Fin 128, G (pointRow p).1 (pointRow p).2 :=
    (Fintype.sum_prod_type (fun p : Fin 32 × Fin 128 => G (pointRow p).1 (pointRow p).2)).symm
  have e2 : ∑ b : Fin 16, ∑ h : Fin 256, G b h = ∑ q : Fin 16 × Fin 256, G q.1 q.2 :=
    (Fintype.sum_prod_type (fun q : Fin 16 × Fin 256 => G q.1 q.2)).symm
  rw [e1, e2]
  exact Fintype.sum_equiv pointRow _ _ (fun _ => rfl)

/-- A running total that starts at `z + g 0` and adds `g (n + 1)` at step `n + 1` is `z` plus the addends so far. -/
theorem chain_eq_sum {β : Type*} [AddCommMonoid β] {N : Nat} (c g : (n : Nat) → n < N → β) (z : β)
    (h0 : ∀ h : 0 < N, c 0 h = z + g 0 h)
    (hs : ∀ (n : Nat) (h : n + 1 < N), c (n + 1) h = c n (Nat.lt_of_succ_lt h) + g (n + 1) h) :
    ∀ (n : Nat) (h : n < N), c n h = z + ∑ s : Fin (n + 1), g s.val (lt_of_lt_of_le s.isLt h)
  | 0, h => by
    rw [h0 h, Fin.sum_univ_one]; rfl
  | n + 1, h => by
    rw [hs n h, chain_eq_sum c g z h0 hs n (Nat.lt_of_succ_lt h), add_assoc]
    conv_rhs => rw [Fin.sum_univ_castSucc]
    rfl

end Cert.MaskedLoss
-- ==== Proof.KBlocks.lean ====
/-
  The kernel's input blocks, read at an index, are the argument arrays at the tile's place.

  Grid point `t` (of 32, in row-major order of the grid [16, 2]) fetches block (t / 2, 0, t % 2, 0) of each operand, a
  [1, 16, 128, 256] block: its element (0, f, r, w) is the array's element (t / 2, f, 128 * (t % 2) + r, w). The first two
  operands are the arguments X and Y as launched; the third is the mask widened to 32-bit words by the host line before
  the kernel, so its word at an element is the mask bit widened. Hence the six summands of a tile (BlockSpec.lean
  `bterm`) are the arrays' summands (Spec.lean `term`) at batch entry and row `pointRow (t, r)`.
-/
import proofs.«157307_j44032004718833_1_alg».proof.Proof.Gen.KernelIdeal.Frame
import proofs.«157307_j44032004718833_1_alg».proof.Proof.BlockSpec
import proofs.«157307_j44032004718833_1_alg».proof.Proof.SumLaws
import Idealize.ShloMosaic.Lib.Pipeline.Value
import Idealize.ShloMosaic.Lib.StableHlo.Run

noncomputable section

namespace Cert.KernelIdeal.Blocks

open Idealize.ShloMosaic Idealize.ShloMosaic.TcCoe Idealize.ShloMosaic.ValueIdx Idealize.SL.Sem
open Cert.KernelIdeal Cert.KernelIdeal.Gen Cert.MaskedLoss

variable {F : FTy → Type} [FloatOps F]
variable (m : (ℓ : Loc nD τ sig) → Buf (Elt F) ℓ)

/-- The three argument arrays as launched, at their literal types. -/
abbrev argX (c : Dev nD) : Vec F S16x16x256x256 .f32 := m ((c : Thread nD τ).loc main_arg0)
abbrev argY (c : Dev nD) : Vec F S16x16x256x256 .f32 := m ((c : Thread nD τ).loc main_arg1)
abbrev argM (c : Dev nD) : Vec F S16x16x256x256 .i1 := m ((c : Thread nD τ).loc main_arg2)

/-- The three input blocks of a grid point, at their literal types. -/
abbrev xblk (c : Dev nD) (t : Fin cfg0.N) : Vec F S1x16x128x256 .f32 := iblk m c 0 t
abbrev yblk (c : Dev nD) (t : Fin cfg0.N) : Vec F S1x16x128x256 .f32 := iblk m c 1 t
abbrev mblk (c : Dev nD) (t : Fin cfg0.N) : Vec F S1x16x128x256 .i32 := iblk m c 2 t

/-- A grid point as a number below 32. -/
def pt (t : Fin cfg0.N) : Fin 32 := ⟨t.val, lt_of_lt_of_eq t.isLt N_0⟩

/-- The block indices of the three operands at a point: (t / 2, 0, t % 2, 0). -/
theorem index0 : ∀ t : Fin cfg0.N, win0_0.index t (0 : Fin 4) = t.val / 2 ∧ win0_0.index t (1 : Fin 4) = 0
    ∧ win0_0.index t (2 : Fin 4) = t.val % 2 ∧ win0_0.index t (3 : Fin 4) = 0 :=
  (by decide +kernel : ∀ t : Fin grid0.N, _)
theorem index1 : ∀ t : Fin cfg0.N, win0_1.index t (0 : Fin 4) = t.val / 2 ∧ win0_1.index t (1 : Fin 4) = 0
    ∧ win0_1.index t (2 : Fin 4) = t.val % 2 ∧ win0_1.index t (3 : Fin 4) = 0 :=
  (by decide +kernel : ∀ t : Fin grid0.N, _)
theorem index2 : ∀ t : Fin cfg0.N, win0_2.index t (0 : Fin 4) = t.val / 2 ∧ win0_2.index t (1 : Fin 4) = 0
    ∧ win0_2.index t (2 : Fin 4) = t.val % 2 ∧ win0_2.index t (3 : Fin 4) = 0 :=
  (by decide +kernel : ∀ t : Fin grid0.N, _)

/-- The array index under a tile's element. -/
def under (t : Fin cfg0.N) (f : Fin 16) (r : Fin 128) (w : Fin 256) : S16x16x256x256.Idx :=
  ix4 (pointRow (pt t, r)).1 f (pointRow (pt t, r)).2 w

theorem xblk_apply (c : Dev nD) (t : Fin cfg0.N) (f : Fin 16) (r : Fin 128) (w : Fin 256) :
    xblk m c t (ix4 0 f r w) = argX m c (under t f r w) := by
  obtain ⟨h0, h1, h2, h3⟩ := index0 t
  unfold xblk iblk
  rw [View.read_apply]
  show V m c main_arg0 _ = _
  refine (congrFun (V_main_arg0 m c) _).trans ?_
  show m ((c : Thread nD τ).loc main_arg0) _ = m ((c : Thread nD τ).loc main_arg0) _
  congr 1
  funext a
  apply Fin.ext
  match a with
  | ⟨0, _⟩ => show win0_0.index t 0 * 1 + 1 * 0 = t.val / 2; rw [h0]; omega
  | ⟨1, _⟩ => show win0_0.index t 1 * 16 + 1 * f.val = f.val; rw [h1]; omega
  | ⟨2, _⟩ => show win0_0.index t 2 * 128 + 1 * r.val = 128 * (t.val % 2) + r.val; rw [h2]; omega
  | ⟨3, _⟩ => show win0_0.index t 3 * 256 + 1 * w.val = w.val; rw [h3]; omega

theorem yblk_apply (c : Dev nD) (t : Fin cfg0.N) (f : Fin 16) (r : Fin 128) (w : Fin 256) :
    yblk m c t (ix4 0 f r w) = argY m c (under t f r w) := by
  obtain ⟨h0, h1, h2, h3⟩ := index1 t
  unfold yblk iblk
  rw [View.read_apply]
  show V m c main_arg1 _ = _
  refine (congrFun (V_main_arg1 m c) _).trans ?_
  show m ((c : Thread nD τ).loc main_arg1) _ = m ((c : Thread nD τ).loc main_arg1) _
  congr 1
  funext a
  apply Fin.ext
  match a with
  | ⟨0, _⟩ => show win0_1.index t 0 * 1 + 1 * 0 = t.val / 2; rw [h0]; omega
  | ⟨1, _⟩ => show win0_1.index t 1 * 16 + 1 * f.val = f.val; rw [h1]; omega
  | ⟨2, _⟩ => show win0_1.index t 2 * 128 + 1 * r.val = 128 * (t.val % 2) + r.val; rw [h2]; omega
  | ⟨3, _⟩ => show win0_1.index t 3 * 256 + 1 * w.val = w.val; rw [h3]; omega

/-- The host line before the kernel widens the mask to words: the third operand's array is the mask, each bit widened. -/
theorem maskWords (c : Dev nD) :
    (V m c main_v0 : S16x16x256x256.Idx → BitVec 32) = extui 32 (argM m c) natLt_1_32 := by
  show StableHlo.after hostOps0 (fun b => m (c, b)) (Proc.devRef .tc main_v0) = _
  after_results

theorem mblk_apply (c : Dev nD) (t : Fin cfg0.N) (f : Fin 16) (r : Fin 128) (w : Fin 256) :
    mblk m c t (ix4 0 f r w) = (argM m c (under t f r w)).setWidth 32 := by
  obtain ⟨h0, h1, h2, h3⟩ := index2 t
  unfold mblk iblk
  rw [View.read_apply]
  show V m c main_v0 _ = _
  refine (congrFun (maskWords m c) _).trans ?_
  show (argM m c _).setWidth 32 = (argM m c _).setWidth 32
  congr 2
  funext a
  apply Fin.ext
  match a with
  | ⟨0, _⟩ => show win0_2.index t 0 * 1 + 1 * 0 = t.val / 2; rw [h0]; omega
  | ⟨1, _⟩ => show win0_2.index t 1 * 16 + 1 * f.val = f.val; rw [h1]; omega
  | ⟨2, _⟩ => show win0_2.index t 2 * 128 + 1 * r.val = 128 * (t.val % 2) + r.val; rw [h2]; omega
  | ⟨3, _⟩ => show win0_2.index t 3 * 256 + 1 * w.val = w.val; rw [h3]; omega

end Cert.KernelIdeal.Blocks

/-! ## A tile's summands are the arrays' -/

namespace Cert.KernelIdeal.Blocks

open Idealize.ShloMosaic Idealize.ShloMosaic.TcCoe Idealize.ShloMosaic.ValueIdx Idealize.SL.Sem
open Cert.KernelIdeal Cert.KernelIdeal.Gen Cert.MaskedLoss

variable (m : (ℓ : Loc nD τ sig) → Buf (Elt Ideal) ℓ)

theorem bAbs_blocks (c : Dev nD) (t : Fin cfg0.N) (f : Fin 16) (r : Fin 128) (w : Fin 256) :
    bAbs (xblk m c t) (yblk m c t) f r w
      = absDiff (argX m c) (argY m c) (pointRow (pt t, r)).1 f (pointRow (pt t, r)).2 w := by
  unfold bAbs absDiff
  rw [xblk_apply, yblk_apply]
  rfl

theorem bOwn_blocks (c : Dev nD) (t : Fin cfg0.N) (f : Fin 16) (r : Fin 128) (w : Fin 256) :
    bOwn (mblk m c t) f r w = own (argM m c) (pointRow (pt t, r)).1 f (pointRow (pt t, r)).2 w := by
  unfold bOwn own
  rw [mblk_apply, wordf_setWidth]
  rfl

theorem bCompl_blocks (c : Dev nD) (t : Fin cfg0.N) (f : Fin 16) (r : Fin 128) (w : Fin 256) :
    bCompl (mblk m c t) f r w = MaskedLoss.compl (argM m c) (pointRow (pt t, r)).1 f (pointRow (pt t, r)).2 w := by
  unfold bCompl MaskedLoss.compl
  rw [mblk_apply, wordf_setWidth]
  rfl

theorem bAny_blocks (c : Dev nD) (t : Fin cfg0.N) (r : Fin 128) (w : Fin 256) :
    bAny (mblk m c t) r w = anySet (argM m c) (pointRow (pt t, r)).1 (pointRow (pt t, r)).2 w := by
  unfold bAny anySet
  congr 1
  funext f'
  rw [mblk_apply, wordf_setWidth]
  rfl

/-- The six summands of tile `t` at (f, r, w) are the arrays' at batch entry and row `pointRow (t, r)`. -/
theorem bterm_blocks (c : Dev nD) (t : Fin cfg0.N) (k : Fin 6) (f : Fin 16) (r : Fin 128) (w : Fin 256) :
    bterm (xblk m c t) (yblk m c t) (mblk m c t) k f r w
      = term (argX m c) (argY m c) (argM m c) k (pointRow (pt t, r)).1 f (pointRow (pt t, r)).2 w := by
  match k with
  | 0 => show bAbs _ _ f r w * bOwn _ f r w = absDiff _ _ _ f _ w * own _ _ f _ w; rw [bAbs_blocks, bOwn_blocks]
  | 1 => show bOwn _ f r w = own _ _ f _ w; rw [bOwn_blocks]
  | 2 => show bAbs _ _ f r w * bCompl _ f r w = absDiff _ _ _ f _ w * MaskedLoss.compl _ _ f _ w; rw [bAbs_blocks, bCompl_blocks]
  | 3 => show bCompl _ f r w = MaskedLoss.compl _ _ f _ w; rw [bCompl_blocks]
  | 4 => show bAbs _ _ f r w * bAny _ r w = absDiff _ _ _ f _ w * anySet _ _ _ w; rw [bAbs_blocks, bAny_blocks]
  | 5 => show bAny _ r w = anySet _ _ _ w; rw [bAny_blocks]

end Cert.KernelIdeal.Blocks
-- ==== Proof.KInvariant.lean ====
/-
  The six accumulators after every grid point, and the output block after the last.

  Over the grid's 32 points, accumulator `k` starts at the first point from the zero block updated with that point's
  tile, and at each later point is updated from what the point before left: a running total. Read at feature `f`
  over the extended reals it is therefore zero plus the sum over the points so far of each tile's row-and-lane sum of
  summand `k` (`chain_eq_sum`); after the last point that is the sum over all tiles, which, a tile's summands being the
  arrays' at its place (`bterm_blocks`) and (tile, row) ↔ (batch entry, row) a bijection (`sum_points_rows`), is the
  arrays' per-feature total. The last point also stores the loss of the six accumulators it has just updated.
-/
import proofs.«157307_j44032004718833_1_alg».proof.Proof.KPieces
import proofs.«157307_j44032004718833_1_alg».proof.Proof.KStepValue
import proofs.«157307_j44032004718833_1_alg».proof.Proof.KBlocks

set_option maxRecDepth 16384

noncomputable section

open scoped BigOperators

namespace Cert.KernelIdeal.Invariant

open Idealize.ShloMosaic Idealize.ShloMosaic.TcCoe Idealize.ShloMosaic.ValueIdx Idealize.SL.Sem
open Cert.KernelIdeal Cert.KernelIdeal.Gen Cert.KernelIdeal.Steps Cert.KernelIdeal.Pieces Cert.KernelIdeal.Blocks Cert.MaskedLoss

section AnyValues

variable {F : FTy → Type} [FloatOps F]
variable (m : (ℓ : Loc nD τ sig) → Buf (Elt F) ℓ)

/-- Accumulator `k` after point `n`. -/
def accAfter (c : Dev nD) : Fin 6 → (n : ℕ) → n < cfg0.N → Vec F S1x16x1x1 .f32
  | 0 => fun n h => (outsAt0 m c n h).2.1
  | 1 => fun n h => (outsAt0 m c n h).2.2.1
  | 2 => fun n h => (outsAt0 m c n h).2.2.2.1
  | 3 => fun n h => (outsAt0 m c n h).2.2.2.2.1
  | 4 => fun n h => (outsAt0 m c n h).2.2.2.2.2.1
  | 5 => fun n h => (outsAt0 m c n h).2.2.2.2.2.2

/-- The update of accumulator `k` by a tile. -/
def update (x0 x1 : Vec F S1x16x128x256 .f32) (x2 : Vec F S1x16x128x256 .i32) : Fin 6 → Vec F S1x16x1x1 .f32 → Vec F S1x16x1x1 .f32
  | 0 => acc0 x0 x1 x2
  | 1 => acc1 x2
  | 2 => acc2 x0 x1 x2
  | 3 => acc3 x2
  | 4 => acc4 x0 x1 x2
  | 5 => acc5 x2

/-- The first point leaves every accumulator at the zero block updated with its tile. -/
theorem accAfter_zero (c : Dev nD) (k : Fin 6) (h : 0 < cfg0.N) :
    accAfter m c k 0 h = update (xblk m c ⟨0, h⟩) (yblk m c ⟨0, h⟩) (mblk m c ⟨0, h⟩) k zeroAcc := by
  have e := outsAt0_A m c ⟨0, h⟩ rfl (by show ¬(0 : ℕ) % 32 = 31; decide)
  match k with
  | 0 => show (outsAt0 m c 0 h).2.1 = acc0 _ _ _ zeroAcc; rw [e]; dsimp only; exact first_0 ..
  | 1 => show (outsAt0 m c 0 h).2.2.1 = acc1 _ zeroAcc; rw [e]; dsimp only; exact first_1 ..
  | 2 => show (outsAt0 m c 0 h).2.2.2.1 = acc2 _ _ _ zeroAcc; rw [e]; dsimp only; exact first_2 ..
  | 3 => show (outsAt0 m c 0 h).2.2.2.2.1 = acc3 _ zeroAcc; rw [e]; dsimp only; exact first_3 ..
  | 4 => show (outsAt0 m c 0 h).2.2.2.2.2.1 = acc4 _ _ _ zeroAcc; rw [e]; dsimp only; exact first_4 ..
  | 5 => show (outsAt0 m c 0 h).2.2.2.2.2.2 = acc5 _ zeroAcc; rw [e]; dsimp only; exact first_5 ..

/-- A later point leaves every accumulator at what the point before left, updated with its tile (the points in
    between and the last point alike). -/
theorem accAfter_succ (c : Dev nD) (k : Fin 6) (n : ℕ) (h : n + 1 < cfg0.N) :
    accAfter m c k (n + 1) h
      = update (xblk m c ⟨n + 1, h⟩) (yblk m c ⟨n + 1, h⟩) (mblk m c ⟨n + 1, h⟩) k (accAfter m c k n (Nat.lt_of_succ_lt h)) := by
  have hN : cfg0.N = 32 := N_0
  have h0 : ¬(⟨n + 1, h⟩ : Fin cfg0.N).val % 32 = 0 := by dsimp only; omega
  by_cases h1 : (⟨n + 1, h⟩ : Fin cfg0.N).val % 32 = 31
  · have e := outsAt0_C m c ⟨n + 1, h⟩ h0 h1
    match k with
    | 0 => show (outsAt0 m c (n + 1) h).2.1 = acc0 _ _ _ (outsAt0 m c n _).2.1; rw [e]; dsimp only; exact last_0 ..
    | 1 => show (outsAt0 m c (n + 1) h).2.2.1 = acc1 _ (outsAt0 m c n _).2.2.1; rw [e]; dsimp only; exact last_1 ..
    | 2 => show (outsAt0 m c (n + 1) h).2.2.2.1 = acc2 _ _ _ (outsAt0 m c n _).2.2.2.1; rw [e]; dsimp only; exact last_2 ..
    | 3 => show (outsAt0 m c (n + 1) h).2.2.2.2.1 = acc3 _ (outsAt0 m c n _).2.2.2.2.1; rw [e]; dsimp only; exact last_3 ..
    | 4 => show (outsAt0 m c (n + 1) h).2.2.2.2.2.1 = acc4 _ _ _ (outsAt0 m c n _).2.2.2.2.2.1; rw [e]; dsimp only; exact last_4 ..
    | 5 => show (outsAt0 m c (n + 1) h).2.2.2.2.2.2 = acc5 _ (outsAt0 m c n _).2.2.2.2.2.2; rw [e]; dsimp only; exact last_5 ..
  · have e := outsAt0_B m c ⟨n + 1, h⟩ h0 h1
    match k with
    | 0 => show (outsAt0 m c (n + 1) h).2.1 = acc0 _ _ _ (outsAt0 m c n _).2.1; rw [e]; dsimp only; exact middle_0 ..
    | 1 => show (outsAt0 m c (n + 1) h).2.2.1 = acc1 _ (outsAt0 m c n _).2.2.1; rw [e]; dsimp only; exact middle_1 ..
    | 2 => show (outsAt0 m c (n + 1) h).2.2.2.1 = acc2 _ _ _ (outsAt0 m c n _).2.2.2.1; rw [e]; dsimp only; exact middle_2 ..
    | 3 => show (outsAt0 m c (n + 1) h).2.2.2.2.1 = acc3 _ (outsAt0 m c n _).2.2.2.2.1; rw [e]; dsimp only; exact middle_3 ..
    | 4 => show (outsAt0 m c (n + 1) h).2.2.2.2.2.1 = acc4 _ _ _ (outsAt0 m c n _).2.2.2.2.2.1; rw [e]; dsimp only; exact middle_4 ..
    | 5 => show (outsAt0 m c (n + 1) h).2.2.2.2.2.2 = acc5 _ (outsAt0 m c n _).2.2.2.2.2.2; rw [e]; dsimp only; exact middle_5 ..

/-- The last point's output block: the loss of the six accumulators as that point leaves them. (Stated at any point
    of the last case, so that the point stays a variable: the accumulators' contents are a recursion over the points.) -/
theorem out_last (c : Dev nD) (t : Fin cfg0.N) (h1 : t.val % 32 = 31) :
    (outsAt0 m c t.val t.isLt).1
      = finish (accAfter m c 0 t.val t.isLt) (accAfter m c 1 t.val t.isLt) (accAfter m c 2 t.val t.isLt)
          (accAfter m c 3 t.val t.isLt) (accAfter m c 4 t.val t.isLt) (accAfter m c 5 t.val t.isLt) := by
  obtain ⟨n, hn⟩ := t
  cases n with
  | zero => exact absurd h1 (by show ¬(0 : ℕ) % 32 = 31; decide)
  | succ n =>
    have hN : cfg0.N = 32 := N_0
    have h0 : ¬(⟨n + 1, hn⟩ : Fin cfg0.N).val % 32 = 0 := by dsimp only at h1 ⊢; omega
    have e := outsAt0_C m c ⟨n + 1, hn⟩ h0 h1
    show (outsAt0 m c (n + 1) hn).1 = finish (accAfter m c 0 (n + 1) hn) (accAfter m c 1 (n + 1) hn) (accAfter m c 2 (n + 1) hn)
      (accAfter m c 3 (n + 1) hn) (accAfter m c 4 (n + 1) hn) (accAfter m c 5 (n + 1) hn)
    rw [accAfter_succ m c 0 n hn, accAfter_succ m c 1 n hn, accAfter_succ m c 2 n hn, accAfter_succ m c 3 n hn,
      accAfter_succ m c 4 n hn, accAfter_succ m c 5 n hn, e]
    dsimp only
    exact last_out ..

end AnyValues

/-! ## Over the extended reals: the accumulators are the per-feature totals -/

section AtIdeal

variable (m : (ℓ : Loc nD τ sig) → Buf (Elt Ideal) ℓ)

/-- An update adds the tile's row-and-lane sum of its summand. -/
theorem update_apply (x0 x1 : Vec Ideal S1x16x128x256 .f32) (x2 : Vec Ideal S1x16x128x256 .i32) (k : Fin 6)
    (xs : Vec Ideal S1x16x1x1 .f32) (f : Fin 16) :
    update x0 x1 x2 k xs (ix4 0 f 0 0) = xs (ix4 0 f 0 0) + ∑ r : Fin 128, ∑ w : Fin 256, bterm x0 x1 x2 k f r w := by
  match k with
  | 0 => exact acc0_apply x0 x1 x2 xs f
  | 1 => exact acc1_apply x0 x1 x2 xs f
  | 2 => exact acc2_apply x0 x1 x2 xs f
  | 3 => exact acc3_apply x0 x1 x2 xs f
  | 4 => exact acc4_apply x0 x1 x2 xs f
  | 5 => exact acc5_apply x0 x1 x2 xs f

/-- The row-and-lane sum of summand `k` over the tile of point `n`, at feature `f`. -/
def tileSum (c : Dev nD) (k : Fin 6) (f : Fin 16) (n : ℕ) (h : n < cfg0.N) : EReal :=
  ∑ r : Fin 128, ∑ w : Fin 256, bterm (xblk m c ⟨n, h⟩) (yblk m c ⟨n, h⟩) (mblk m c ⟨n, h⟩) k f r w

/-- Accumulator `k` after point `n`, at feature `f`: zero plus the tile sums of the points so far. -/
theorem accAfter_apply (c : Dev nD) (k : Fin 6) (f : Fin 16) (n : ℕ) (h : n < cfg0.N) :
    accAfter m c k n h (ix4 0 f 0 0) = zeroW + ∑ s : Fin (n + 1), tileSum m c k f s.val (lt_of_lt_of_le s.isLt h) :=
  chain_eq_sum (fun n h => accAfter m c k n h (ix4 0 f 0 0)) (tileSum m c k f) zeroW
    (fun h => by show accAfter m c k 0 h (ix4 0 f 0 0) = _; rw [accAfter_zero, update_apply, zeroAcc_apply]; rfl)
    (fun n h => by show accAfter m c k (n + 1) h (ix4 0 f 0 0) = _; rw [accAfter_succ, update_apply]; rfl) n h

/-- A tile's sum is the arrays' summand summed over the tile's place. -/
theorem tileSum_eq (c : Dev nD) (k : Fin 6) (f : Fin 16) (s : Fin 32) (h : s.val < cfg0.N) :
    tileSum m c k f s.val h
      = ∑ r : Fin 128, ∑ w : Fin 256, term (argX m c) (argY m c) (argM m c) k (pointRow (s, r)).1 f (pointRow (s, r)).2 w := by
  unfold tileSum
  refine Finset.sum_congr rfl fun r _ => Finset.sum_congr rfl fun w _ => ?_
  rw [bterm_blocks]
  rfl

/-- After the last point an accumulator holds the arrays' per-feature total of its summand. -/
theorem accAfter_last (c : Dev nD) (k : Fin 6) (f : Fin 16) (n : ℕ) (h : n < cfg0.N) (hn : n = 31) :
    accAfter m c k n h (ix4 0 f 0 0) = total (argX m c) (argY m c) (argM m c) k f := by
  rw [accAfter_apply]
  subst hn
  unfold total
  congr 1
  show ∑ s : Fin 32, tileSum m c k f s.val _ = _
  rw [Finset.sum_congr rfl fun s _ => tileSum_eq m c k f s _]
  exact sum_points_rows fun b h => ∑ w : Fin 256, term (argX m c) (argY m c) (argM m c) k b f h w

/-- So the output block the last point stores holds the loss of the three argument arrays. -/
theorem out_value (c : Dev nD) (t : Fin cfg0.N) (ht : t.val = 31) (i : S1x1.Idx) :
    (outsAt0 m c t.val t.isLt).1 i = loss (argX m c) (argY m c) (argM m c) := by
  rw [out_last m c t (by rw [ht]), finish_apply]
  simp only [accAfter_last m c _ _ t.val t.isLt ht]
  rfl

end AtIdeal

end Cert.KernelIdeal.Invariant
-- ==== Proof.KFinal.lean ====
/-
  The kernel program's result: the loss of the three argument arrays.

  The output window is one [1, 1] block, written back after the last grid point only; what that point stores there is
  the loss (KInvariant.lean `out_value`), and the block being the whole array, the result array of the kernel call ends
  holding it. The host line after the call reshapes [1, 1] to a scalar, which keeps the one element. The arguments end as
  launched: the first two are staged inputs, which a run leaves at their entry contents, the other two no window stages.
-/
import proofs.«157307_j44032004718833_1_alg».proof.Proof.KInvariant

set_option maxRecDepth 16384

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Invariant Cert.MaskedLoss

variable (m : (ℓ : Loc nD τ sig) → Buf (Elt Ideal) ℓ) (ρ : Dev nD → PrngReg)

/-- The kernel call's [1, 1] result array holding the loss. -/
abbrev lossBlock (c : Dev nD) : Buf (Elt Ideal) ((c : Thread nD τ).loc main_v1) :=
  fun _ => loss (argX m c) (argY m c) (argM m c)

/-- The last grid point. -/
abbrev tLast : Fin cfg0.N := ⟨31, by rw [show cfg0.N = 32 from N_0]; decide⟩

/-- The one write-back, after the last point, writes the loss. -/
theorem flushed_eq (c : Dev nD) (t : Fin cfg0.N) (hf : (cfg0.win 3).flush t = true) :
    (dats m 0 c).flushed 3 t = ((cfg0.win 3).blk t).view.read (Elt Ideal) (lossBlock m c) := by
  have hN : cfg0.N = 32 := N_0
  have h31 : t.val = 31 := by have := (flush0_3 t).mp hf; have := t.isLt; omega
  funext y
  show (dats m 0 c).after 3 t _ = _
  rw [after0_3]
  refine (out_value m c t h31 _).trans ?_
  rw [View.read_apply]
  rfl

/-- So the kernel call's result array ends holding the loss: the last point's block covers it. -/
theorem final (c : Dev nD) : (dats m 0 c).arrAt 3 cfg0.N = lossBlock m c :=
  (dats m 0 c).arrAt_eq_of_cover 3 (lossBlock m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [show win0_3.index tLast 0 * win0_3.size 0 = 0 from by decide +kernel, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [show win0_3.index tLast 1 * win0_3.size 1 = 0 from by decide +kernel, show win0_3.xsize (grid0.coords tLast) 1 = 1 from by decide +kernel]; omega⟩

/-- The host line after the call: the scalar result is the array's one element. -/
theorem tail_eq (c : Dev nD) :
    Pipeline.afterTail₀ cfgs (dats m) 0 (V0 m) [hostOps1] c main_v2 = fun _ => loss (argX m c) (argY m c) (argM m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = lossBlock m c := (Pipeline.withArrays_arr spec0 launch0.win.arr_inj c _ _ 3).trans (final m c)
  rw [hw]
  rfl

/-- The run, read: the scalar result at the loss, the four arguments as launched. -/
theorem run : θ_run defs (onTc (τ := τ) (main (F := Ideal))) ⟨m, fun _ => 0, ρ⟩ fun r => ∀ c : Dev nD,
      r.2.mem ((c.tc : Thread nD τ).loc main_v2) = (fun _ => loss (argX m c) (argY m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final
-- ==== Proof.RefSums.lean ====
/-
  Two readings of a reduction at an index, over abstract operands:
  the sum over batch entries, rows and lanes of a [16,16,256,256] array into its sixteen features,
  and the largest of sixteen mask bits read as numbers.
-/
import proofs.«157307_j44032004718833_1_alg».proof.Proof.Spec
import Idealize.ShloMosaic.PureOps.Reduce

noncomputable section

open scoped BigOperators

namespace Cert.ReferenceIdeal.RefSums

open Idealize.ShloMosaic Idealize.ShloMosaic.ValueIdx Cert.MaskedLoss

/-- Dropping batch, row and lane of (b, f, h, w) leaves the feature f. -/
theorem drop_ix4 (hR : Arr.ReducesTo [0, 2, 3] (⟨1, ![16]⟩ : Shape)) (b f : Fin 16) (h w : Fin 256) :
    hR.drop (ix4 b f h w) = ix1 f := by
  funext d
  match d with
  | ⟨0, _⟩ => exact Fin.ext (hR.drop_apply_val_of_eq (ix4 b f h w) 0 1)

/-- An index whose feature coordinate is f is (b, f, h, w) for its own b, h, w. -/
theorem eq_ix4_of_drop (hR : Arr.ReducesTo [0, 2, 3] (⟨1, ![16]⟩ : Shape)) (i : Arr.Idx) (f : Fin 16)
    (hi : hR.drop i = ix1 f) : ix4 (i 0) f (i 2) (i 3) = i := by
  have h1 : (i 1).val = f.val := by
    have := congrArg (fun j : (⟨1, ![16]⟩ : Shape).Idx => (j 0).val) hi
    simpa [hR.drop_apply_val_of_eq i 0 1] using this
  have hf : f = i 1 := Fin.ext h1.symm
  rw [hf]; exact (eq_ix4 i).symm

/-- The host's sum over axes 0, 2, 3 at feature f: the initial value plus the triple sum over batch entries,
    rows and lanes. -/
theorem hostSum3_apply (hR : Arr.ReducesTo [0, 2, 3] (⟨1, ![16]⟩ : Shape)) (T : Arr.Idx → EReal) (init : EReal)
    (f : Fin 16) :
    Ideal.hostReduceAdd hR T init (ix1 f)
      = init + ∑ b : Fin 16, ∑ h : Fin 256, ∑ w : Fin 256, T (ix4 b f h w) := by
  unfold Ideal.hostReduceAdd
  congr 1
  have key : ∑ i ∈ Finset.univ.filter (fun i => hR.drop i = ix1 f), T i
      = ∑ p : Fin 16 × Fin 256 × Fin 256, T (ix4 p.1 f p.2.1 p.2.2) := by
    refine Finset.sum_nbij' (fun i => (i 0, i 2, i 3)) (fun p => ix4 p.1 f p.2.1 p.2.2) ?_ ?_ ?_ ?_ ?_
    · intro i _; exact Finset.mem_univ _
    · intro p _; exact Finset.mem_filter.2 ⟨Finset.mem_univ _, drop_ix4 hR p.1 f p.2.1 p.2.2⟩
    · intro i hi; exact eq_ix4_of_drop hR i f (Finset.mem_filter.1 hi).2
    · intro p _; rfl
    · intro i hi; exact congrArg T (eq_ix4_of_drop hR i f (Finset.mem_filter.1 hi).2).symm
  rw [key, Fintype.sum_prod_type]
  refine Finset.sum_congr rfl fun b _ => ?_
  rw [Fintype.sum_prod_type]

/-- A sum over the rank-1 index set is the sum over its coordinate. -/
theorem sum_idx1 {n : Nat} (g : (⟨1, ![n]⟩ : Shape).Idx → EReal) : ∑ j, g j = ∑ f : Fin n, g (ix1 f) := by
  refine (Fintype.sum_equiv (⟨ix1, fun j => j 0, fun _ => rfl, fun j => (eq_ix1 j).symm⟩ : Fin n ≃ (⟨1, ![n]⟩ : Shape).Idx) _ _ fun _ => rfl).symm

/-! ## The largest of the mask bits -/

/-- The −∞ word is the bottom of the extended reals. -/
theorem negInfW_eq_bot : negInfW = ⊥ := by
  show Ideal.ofBits .f32 0xFF800000#32 = ⊥
  simp [Ideal.ofBits, Ideal.ieee]

theorem bitf_nonneg (a : BitVec 1) : (0 : EReal) ≤ bitf a := by
  unfold bitf; exact_mod_cast Nat.cast_nonneg _

/-- The number of a disjunction of two bits is the larger of their numbers. -/
theorem bitf_ori (a b : BitVec 1) : bitf (IntOp.ori a b) = max (bitf a) (bitf b) := by
  have h : ∀ a b : BitVec 1, (IntOp.ori a b).toNat = max a.toNat b.toNat := by decide
  unfold bitf
  rw [h, Nat.cast_max]
  exact EReal.coe_strictMono.monotone.map_max

/-- Over a nonempty index set, the fold of max over nonnegative numbers does not depend on a starting value
    that is at most zero. -/
theorem fold_max_bot_eq {ι : Type} (s : Finset ι) (hs : s.Nonempty) (G : ι → EReal) (hG : ∀ x, 0 ≤ G x) :
    s.fold max (⊥ : EReal) G = s.fold max 0 G := by
  obtain ⟨x0, hx0⟩ := hs
  apply le_antisymm
  · exact (Finset.fold_max_le _).2 ⟨bot_le, fun x hx => (Finset.le_fold_max _).2 (Or.inr ⟨x, hx, le_rfl⟩)⟩
  · exact (Finset.fold_max_le _).2 ⟨(Finset.le_fold_max _).2 (Or.inr ⟨x0, hx0, hG x0⟩),
      fun x hx => (Finset.le_fold_max _).2 (Or.inr ⟨x, hx, le_rfl⟩)⟩

/-- The number of the disjunction of sixteen bits, from the clear bit, is the largest of their numbers, from −∞. -/
theorem bitf_fold_ori (g : Fin 16 → BitVec 1) :
    bitf ((Finset.univ : Finset (Fin 16)).fold IntOp.ori 0#1 g)
      = (Finset.univ : Finset (Fin 16)).fold max negInfW (fun f' => bitf (g f')) := by
  rw [negInfW_eq_bot, fold_max_bot_eq _ ⟨0, Finset.mem_univ _⟩ _ (fun x => bitf_nonneg _)]
  have h0 : (0 : EReal) = bitf 0#1 := by simp [bitf]
  rw [h0]
  exact (Finset.fold_hom (op := IntOp.ori) (op' := max) (m := bitf) bitf_ori).symm

end Cert.ReferenceIdeal.RefSums
-- ==== Proof.RefValue.lean ====
/-
  The reference's result term is the loss of Spec.lean.

  The reference computes, for each of the three weightings, the six sums over batch entries, rows and lanes
  (a weighted difference and a weight per weighting), the guarded quotient per feature, the mean over the
  sixteen features, and a third of the three means' sum. Each stage is read at an index and met with the
  matching piece of the loss: the elementwise stages by unfolding, the three-axis sums by the triple sum,
  the "any feature" bit by the largest of the sixteen bits' numbers.
-/
import proofs.«157307_j44032004718833_1_alg».proof.Proof.RefReadP
import proofs.«157307_j44032004718833_1_alg».proof.Proof.Spec
import proofs.«157307_j44032004718833_1_alg».proof.Proof.RefSums

noncomputable section

open scoped BigOperators

namespace Cert.ReferenceIdeal.RefValue

open Idealize.ShloMosaic Idealize.ShloMosaic.ValueIdx Cert.ReferenceIdeal Cert.MaskedLoss
open Cert.ReferenceIdeal.ReadP Cert.ReferenceIdeal.RefSums

section Stages

variable (x0 x1 : (⟨S16x16x256x256, .f32⟩ : BufTy).Contents (Elt Ideal))
  (x2 : (⟨S16x16x256x256, .i1⟩ : BufTy).Contents (Elt Ideal))

/-! ## The elementwise stages at (b, f, h, w) -/

/-- |X − Y|. -/
theorem v1_at (b f : Fin 16) (h w : Fin 256) :
    val_main_v1 (F := Ideal) x0 x1 (ix4 b f h w) = absDiff x0 x1 b f h w := rfl

/-- The mask bit as a number. -/
theorem v2_at (b f : Fin 16) (h w : Fin 256) :
    val_main_v2 (F := Ideal) x2 (ix4 b f h w) = own x2 b f h w := rfl

/-- One minus the mask bit. -/
theorem v4_at (b f : Fin 16) (h w : Fin 256) :
    val_main_v4 (F := Ideal) x2 (ix4 b f h w) = compl x2 b f h w := by
  rw [val_main_v4_apply, val_main_v3_apply]; rfl

/-- The disjunction over the features at (b, h, w): the fold of "or" from the clear bit over the sixteen bits. -/
theorem v5_at (b : Fin 16) (h w : Fin 256) :
    val_main_v5 (F := Ideal) x2 (ix3 b h w)
      = (Finset.univ : Finset (Fin 16)).fold IntOp.ori 0#1 (fun f' => x2 (ix4 b f' h w)) := by
  have hR : S16x16x256x256.Reduces [1] S16x256x256 := by decide
  unfold val_main_v5
  refine (Host.reduce_eq_fold_single IntOp.ori x2 _ _ hR _ (ix3 b h w)).trans ?_
  show (Finset.univ : Finset (Fin 16)).fold IntOp.ori 0#1 (fun f' => x2 (hR.lift (ix3 b h w) f')) = _
  congr 1
  funext f'
  congr 1
  funext a
  match a with
  | ⟨0, _⟩ => rfl
  | ⟨1, _⟩ => rfl
  | ⟨2, _⟩ => rfl
  | ⟨3, _⟩ => rfl

/-- The "any feature" weight, broadcast back along the features. -/
theorem v30_at (b f : Fin 16) (h w : Fin 256) :
    val_main_v30 (F := Ideal) x2 (ix4 b f h w) = anySet x2 b h w := by
  have hidx : idx_main_v6 (idx_main_v30 (ix4 b f h w)) = ix3 b h w := by
    funext a
    match a with
    | ⟨0, _⟩ => rfl
    | ⟨1, _⟩ => rfl
    | ⟨2, _⟩ => rfl
  rw [val_main_v30_apply, val_main_v7_apply, val_main_v6_apply, hidx, v5_at]
  exact bitf_fold_ori _

theorem v33_at (b f : Fin 16) (h w : Fin 256) :
    val_main_v33 (F := Ideal) x2 (ix4 b f h w) = anySet x2 b h w := by
  have hidx : idx_main_v6 (idx_main_v33 (ix4 b f h w)) = ix3 b h w := by
    funext a
    match a with
    | ⟨0, _⟩ => rfl
    | ⟨1, _⟩ => rfl
    | ⟨2, _⟩ => rfl
  rw [val_main_v33_apply, val_main_v7_apply, val_main_v6_apply, hidx, v5_at]
  exact bitf_fold_ori _

/-! ## The six per-feature totals -/

theorem v9_at (f : Fin 16) : val_main_v9 (F := Ideal) x0 x1 x2 (ix1 f) = total x0 x1 x2 0 f := by
  unfold val_main_v9
  refine (hostSum3_apply _ _ _ f).trans ?_
  refine congrArg (zeroW + ·) ?_
  refine Finset.sum_congr rfl fun b _ => Finset.sum_congr rfl fun h _ => Finset.sum_congr rfl fun w _ => ?_
  rfl

theorem v10_at (f : Fin 16) : val_main_v10 (F := Ideal) x2 (ix1 f) = total x0 x1 x2 1 f := by
  unfold val_main_v10
  refine (hostSum3_apply _ _ _ f).trans ?_
  refine congrArg (zeroW + ·) ?_
  refine Finset.sum_congr rfl fun b _ => Finset.sum_congr rfl fun h _ => Finset.sum_congr rfl fun w _ => ?_
  rfl

theorem v20_at (f : Fin 16) : val_main_v20 (F := Ideal) x0 x1 x2 (ix1 f) = total x0 x1 x2 2 f := by
  unfold val_main_v20
  refine (hostSum3_apply _ _ _ f).trans ?_
  refine congrArg (zeroW + ·) ?_
  refine Finset.sum_congr rfl fun b _ => Finset.sum_congr rfl fun h _ => Finset.sum_congr rfl fun w _ => ?_
  rw [val_main_v19_apply, v1_at, v4_at]; rfl

theorem v21_at (f : Fin 16) : val_main_v21 (F := Ideal) x2 (ix1 f) = total x0 x1 x2 3 f := by
  unfold val_main_v21
  refine (hostSum3_apply _ _ _ f).trans ?_
  refine congrArg (zeroW + ·) ?_
  refine Finset.sum_congr rfl fun b _ => Finset.sum_congr rfl fun h _ => Finset.sum_congr rfl fun w _ => ?_
  rw [v4_at]; rfl

theorem v32_at (f : Fin 16) : val_main_v32 (F := Ideal) x0 x1 x2 (ix1 f) = total x0 x1 x2 4 f := by
  unfold val_main_v32
  refine (hostSum3_apply _ _ _ f).trans ?_
  refine congrArg (zeroW + ·) ?_
  refine Finset.sum_congr rfl fun b _ => Finset.sum_congr rfl fun h _ => Finset.sum_congr rfl fun w _ => ?_
  rw [val_main_v31_apply, v1_at, v30_at]; rfl

theorem v34_at (f : Fin 16) : val_main_v34 (F := Ideal) x2 (ix1 f) = total x0 x1 x2 5 f := by
  unfold val_main_v34
  refine (hostSum3_apply _ _ _ f).trans ?_
  refine congrArg (zeroW + ·) ?_
  refine Finset.sum_congr rfl fun b _ => Finset.sum_congr rfl fun h _ => Finset.sum_congr rfl fun w _ => ?_
  rw [v33_at]; rfl

/-! ## The guarded quotients and their means -/

theorem v16_at (f : Fin 16) :
    val_main_v16 (F := Ideal) x0 x1 x2 (ix1 f) = guardedMean (total x0 x1 x2 0) (total x0 x1 x2 1) f := by
  rw [val_main_v16_apply, val_main_v12_apply, val_main_v15_apply, val_main_v14_apply, val_main_v11_apply,
    val_main_v13_apply, val_main_call0_v1_apply, v9_at, v10_at x0 x1]
  rfl

theorem v27_at (f : Fin 16) :
    val_main_v27 (F := Ideal) x0 x1 x2 (ix1 f) = guardedMean (total x0 x1 x2 2) (total x0 x1 x2 3) f := by
  rw [val_main_v27_apply, val_main_v23_apply, val_main_v26_apply, val_main_v25_apply, val_main_v22_apply,
    val_main_v24_apply, val_main_call1_v1_apply, v20_at, v21_at x0 x1]
  rfl

theorem v40_at (f : Fin 16) :
    val_main_v40 (F := Ideal) x0 x1 x2 (ix1 f) = guardedMean (total x0 x1 x2 4) (total x0 x1 x2 5) f := by
  rw [val_main_v40_apply, val_main_v36_apply, val_main_v39_apply, val_main_v38_apply, val_main_v35_apply,
    val_main_v37_apply, val_main_call2_v1_apply, v32_at, v34_at x0 x1]
  rfl

theorem v18_at (i : S_.Idx) :
    val_main_v18 (F := Ideal) x0 x1 x2 i = featMean (guardedMean (total x0 x1 x2 0) (total x0 x1 x2 1)) := by
  rw [val_main_v18_apply, val_main_v17_apply, sum_idx1]
  simp only [v16_at]
  show Ideal.div (Ideal.ofBits .f32 0x00000000#32 + _) sixteenW = _
  rw [Ideal.ofBits_zero_f32, zero_add]; rfl

theorem v29_at (i : S_.Idx) :
    val_main_v29 (F := Ideal) x0 x1 x2 i = featMean (guardedMean (total x0 x1 x2 2) (total x0 x1 x2 3)) := by
  rw [val_main_v29_apply, val_main_v28_apply, sum_idx1]
  simp only [v27_at]
  show Ideal.div (Ideal.ofBits .f32 0x00000000#32 + _) sixteenW = _
  rw [Ideal.ofBits_zero_f32, zero_add]; rfl

theorem v42_at (i : S_.Idx) :
    val_main_v42 (F := Ideal) x0 x1 x2 i = featMean (guardedMean (total x0 x1 x2 4) (total x0 x1 x2 5)) := by
  rw [val_main_v42_apply, val_main_v41_apply, sum_idx1]
  simp only [v40_at]
  show Ideal.div (Ideal.ofBits .f32 0x00000000#32 + _) sixteenW = _
  rw [Ideal.ofBits_zero_f32, zero_add]; rfl

end Stages

theorem val_eq_loss (x0 x1 : (⟨S16x16x256x256, .f32⟩ : BufTy).Contents (Elt Ideal)) (x2 : (⟨S16x16x256x256, .i1⟩ : BufTy).Contents (Elt Ideal)) :
    Cert.ReferenceIdeal.ReadP.val_main_v45 (F := Ideal) x0 x1 x2 = fun _ => loss x0 x1 x2 := by
  funext i
  rw [val_main_v45_apply, val_main_v44_apply, val_main_v43_apply, v18_at, v42_at, v29_at]
  rfl

end Cert.ReferenceIdeal.RefValue
-- ==== Proof.lean ====
/-
  The certificate of the masked mean-absolute-difference loss: a Pallas kernel that walks X, Y : f32[16, 16, 256, 256]
  and a mask M in 32 tiles of 128 rows, keeps six per-feature running sums in scratch and writes the loss at the last
  grid point, against jnp's reference, which takes each per-feature sum over batch, rows and lanes at once.

  Over the extended reals both compute Spec.lean's `loss X Y M`: with d = |X − Y| and m the mask bit as 0 or 1, for the
  three weights m, 1 − m and "some feature's mask is set here", the per-feature quotient of Σ d·weight by Σ weight
  (guarded where the weight sum is not positive), averaged over the 16 features, the three averages added and divided by 3.
  The kernel's sums are the reference's re-associated: tile by tile, lanes before rows, a running total across the grid.
  Addition of extended reals is commutative and associative, so no finiteness is needed and the precondition is not opened.
  The kernel's "some feature's mask is set" is a maximum of the 0/1 numbers, the reference's an OR of the bits turned into
  a number: the same, bit by bit. The ideal pass rewrote nothing, so `preserves` is trivial.

  Kernel side: KSteps / KPieces (what each case of the body leaves), KStepValue (that arithmetic at an index), KBlocks (a
  tile's place in the arrays), KInvariant (the running totals are the per-feature totals), KFinal (the result array and
  the reshape after the call). Reference side: RefSums, RefValue over the reference's run read back. The word-level
  kernel needs only its frame.
-/
import proofs.«157307_j44032004718833_1_alg».proof.Defs
import proofs.«157307_j44032004718833_1_alg».proof.Proof.Gen.Kernel
import proofs.«157307_j44032004718833_1_alg».proof.Proof.Gen.Kernel.Skeleton
import proofs.«157307_j44032004718833_1_alg».proof.Proof.Gen.Kernel.Launch
import proofs.«157307_j44032004718833_1_alg».proof.Proof.Gen.Kernel.Points
import proofs.«157307_j44032004718833_1_alg».proof.Proof.Gen.Kernel.Frame
import proofs.«157307_j44032004718833_1_alg».proof.Proof.Gen.KernelIdeal
import proofs.«157307_j44032004718833_1_alg».proof.Proof.Gen.KernelIdeal.Skeleton
import proofs.«157307_j44032004718833_1_alg».proof.Proof.Gen.KernelIdeal.Launch
import proofs.«157307_j44032004718833_1_alg».proof.Proof.Gen.KernelIdeal.Points
import proofs.«157307_j44032004718833_1_alg».proof.Proof.Gen.KernelIdeal.Frame
import proofs.«157307_j44032004718833_1_alg».proof.Proof.Gen.ReferenceIdeal
import proofs.«157307_j44032004718833_1_alg».proof.Proof.Gen.Pre_finite_inputs
import proofs.«157307_j44032004718833_1_alg».proof.Proof.KFinal
import proofs.«157307_j44032004718833_1_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the loss of their argument arrays, and the arrays agree. -/
theorem algebraic : Cert.algebraic_KernelIdeal_ReferenceIdeal := by
  intro m ρ m' ρ' _ hagree
  refine ⟨fun c => fun _ => Cert.MaskedLoss.loss (Cert.KernelIdeal.Blocks.argX m c) (Cert.KernelIdeal.Blocks.argY m c)
    (Cert.KernelIdeal.Blocks.argM m c), Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v45_eq, Cert.ReferenceIdeal.RefValue.val_eq_loss, (hagree c).1, (hagree c).2.1,
    (hagree c).2.2.1]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
